-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x4096 : Shape := ⟨2, ![2048, 4096]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S2048 : S_.BroadcastsInDim S2048 (![] : Fin 0 → Fin S2048.rank)
  reducesTo_S2048_S_d0 : S2048.ReducesTo [0] S_

variable [Facts]

def fn_part3 {F : FTy → Type} [FloatOps F] (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  main_v53

def fn_part2 {F : FTy → Type} [FloatOps F] (main_arg7 : FVec F S2048x4096 .f32) (main_arg8 : FVec F S2048 .f32) (main_arg9 : FVec F S2048x4096 .f32) (main_arg10 : FVec F S2048 .f32) (main_v33 : IVec S_ 1) : IVec S_ 1 :=
  let main_v34 : FVec F S2048x4096 .f32 := Host.absf main_arg7
  let main_cst_12 : FVec F S_ .f32 := constant S_ .f32 0x7F800000#32
  let main_v35 : FVec F S2048x4096 .f32 := broadcastInDim S2048x4096 ![] bcast_S_S2048x4096 main_cst_12
  let main_v36 : IVec S2048x4096 1 := cmpf .olt main_v34 main_v35
  let main_c_13 : IVec S_ 1 := constantI S_ 1 1#1
  let main_v37 : IVec S_ 1 := (fun x v => Host.reduce IntOp.andi x v reducesTo_S2048x4096_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x4096 .f32 := Host.absf main_arg9
  let main_cst_16 : FVec F S_ .f32 := constant S_ .f32 0x7F800000#32
  let main_v45 : FVec F S2048x4096 .f32 := broadcastInDim S2048x4096 ![] bcast_S_S2048x4096 main_cst_16
  let main_v46 : IVec S2048x4096 1 := cmpf .olt main_v44 main_v45
  let main_c_17 : IVec S_ 1 := constantI S_ 1 1#1
  let main_v47 : IVec S_ 1 := (fun x v => Host.reduce IntOp.andi x v reducesTo_S2048x4096_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_v48 main_v49 main_v50

def fn_part1 {F : FTy → Type} [FloatOps F] (main_arg4 : FVec F S2048 .f32) (main_arg5 : FVec F S2048x4096 .f32) (main_arg6 : FVec F S2048 .f32) (main_arg7 : FVec F S2048x4096 .f32) (main_arg8 : FVec F S2048 .f32) (main_arg9 : FVec F S2048x4096 .f32) (main_arg10 : FVec F S2048 .f32) (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x4096 .f32 := Host.absf main_arg5
  let main_cst_8 : FVec F S_ .f32 := constant S_ .f32 0x7F800000#32
  let main_v25 : FVec F S2048x4096 .f32 := broadcastInDim S2048x4096 ![] bcast_S_S2048x4096 main_cst_8
  let main_v26 : IVec S2048x4096 1 := cmpf .olt main_v24 main_v25
  let main_c_9 : IVec S_ 1 := constantI S_ 1 1#1
  let main_v27 : IVec S_ 1 := (fun x v => Host.reduce IntOp.andi x v reducesTo_S2048x4096_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x2048 .f32) (main_arg1 : FVec F S4096x2048 .f32) (main_arg2 : FVec F S4096x2048 .f32) (main_arg3 : FVec F S2048x4096 .f32) (main_arg4 : FVec F S2048 .f32) (main_arg5 : FVec F S2048x4096 .f32) (main_arg6 : FVec F S2048 .f32) (main_arg7 : FVec F S2048x4096 .f32) (main_arg8 : FVec F S2048 .f32) (main_arg9 : FVec F S2048x4096 .f32) (main_arg10 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048x4096 .f32 := Host.absf main_arg3
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_arg4 main_arg5 main_arg6 main_arg7 main_arg8 main_arg9 main_arg10 main_v13 main_v16
-- ==== Kernel.lean ====
abbrev S4096x2048 : Shape := ⟨2, ![4096, 2048]⟩
abbrev S2048x4096 : Shape := ⟨2, ![2048, 4096]⟩
abbrev S2048 : Shape := ⟨1, ![2048]⟩
abbrev S4096x4096 : Shape := ⟨2, ![4096, 4096]⟩
abbrev S512x4096 : Shape := ⟨2, ![512, 4096]⟩
abbrev S256x4096 : Shape := ⟨2, ![256, 4096]⟩
abbrev S256 : Shape := ⟨1, ![256]⟩
abbrev S512x256 : Shape := ⟨2, ![512, 256]⟩
abbrev S1x256 : Shape := ⟨2, ![1, 256]⟩

abbrev nBuf : Space → Nat
  | .hbm => 19
  | .vmem => 24
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x4096, .f32⟩
  | .hbm, ⟨4, _⟩ => ⟨S2048, .f32⟩
  | .hbm, ⟨5, _⟩ => ⟨S2048x4096, .f32⟩
  | .hbm, ⟨6, _⟩ => ⟨S2048, .f32⟩
  | .hbm, ⟨7, _⟩ => ⟨S2048x4096, .f32⟩
  | .hbm, ⟨8, _⟩ => ⟨S2048, .f32⟩
  | .hbm, ⟨9, _⟩ => ⟨S2048x4096, .f32⟩
  | .hbm, ⟨10, _⟩ => ⟨S2048, .f32⟩
  | .hbm, ⟨11, _⟩ => ⟨S4096x4096, .f32⟩
  | .hbm, ⟨12, _⟩ => ⟨S4096x4096, .bf16⟩
  | .hbm, ⟨13, _⟩ => ⟨S2048x4096, .bf16⟩
  | .hbm, ⟨14, _⟩ => ⟨S2048x4096, .bf16⟩
  | .hbm, ⟨15, _⟩ => ⟨S2048x4096, .bf16⟩
  | .hbm, ⟨16, _⟩ => ⟨S2048x4096, .bf16⟩
  | .hbm, ⟨17, _⟩ => ⟨S4096x2048, .f32⟩
  | .hbm, ⟨18, _⟩ => ⟨S4096x2048, .f32⟩
  | .local _ .vmem, ⟨0, _⟩ => ⟨S512x4096, .bf16⟩
  | .local _ .vmem, ⟨1, _⟩ => ⟨S512x4096, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S256x4096, .bf16⟩
  | .local _ .vmem, ⟨7, _⟩ => ⟨S256x4096, .bf16⟩
  | .local _ .vmem, ⟨8, _⟩ => ⟨S256x4096, .bf16⟩
  | .local _ .vmem, ⟨9, _⟩ => ⟨S256x4096, .bf16⟩
  | .local _ .vmem, ⟨10, _⟩ => ⟨S256, .f32⟩
  | .local _ .vmem, ⟨11, _⟩ => ⟨S256, .f32⟩
  | .local _ .vmem, ⟨12, _⟩ => ⟨S256, .f32⟩
  | .local _ .vmem, ⟨13, _⟩ => ⟨S256, .f32⟩
  | .local _ .vmem, ⟨14, _⟩ => ⟨S256, .f32⟩
  | .local _ .vmem, ⟨15, _⟩ => ⟨S256, .f32⟩
  | .local _ .vmem, ⟨16, _⟩ => ⟨S256, .f32⟩
  | .local _ .vmem, ⟨17, _⟩ => ⟨S256, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

class Facts₀ : Prop where
  concatenates_S4096x2048_S4096x2048_S4096x4096_d1 : Shape.Concatenates [S4096x2048, S4096x2048] S4096x4096 1
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .bf16 = 32 ∨ (Rect.block (s := S4096x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S2048x4096.size a
  hwx0_1 : ∀ i : grid0.Coords, EltTy.bits .bf16 = 32 ∨ (Rect.block (s := S2048x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S2048x4096.size a
  hwx0_2 : ∀ i : grid0.Coords, EltTy.bits .bf16 = 32 ∨ (Rect.block (s := S2048x4096) S256x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S2048x4096.size a
  hwx0_3 : ∀ i : grid0.Coords, EltTy.bits .bf16 = 32 ∨ (Rect.block (s := S2048x4096) S256x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S2048x4096.size a
  hwx0_4 : ∀ i : grid0.Coords, EltTy.bits .bf16 = 32 ∨ (Rect.block (s := S2048x4096) S256x4096.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S2048.size a
  hwx0_5 : ∀ i : grid0.Coords, EltTy.bits .f32 = 32 ∨ (Rect.block (s := S2048) S256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S2048.size a
  hwx0_6 : ∀ i : grid0.Coords, EltTy.bits .f32 = 32 ∨ (Rect.block (s := S2048) S256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S2048.size a
  hwx0_7 : ∀ i : grid0.Coords, EltTy.bits .f32 = 32 ∨ (Rect.block (s := S2048) S256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S2048.size a
  hwx0_8 : ∀ i : grid0.Coords, EltTy.bits .f32 = 32 ∨ (Rect.block (s := S2048) S256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x256.size a ≤ S4096x2048.size a
  hwx0_9 : ∀ i : grid0.Coords, EltTy.bits .f32 = 32 ∨ (Rect.block (s := S4096x2048) S512x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x256.size a ≤ S4096x2048.size a
  hwx0_10 : ∀ i : grid0.Coords, EltTy.bits .f32 = 32 ∨ (Rect.block (s := S4096x2048) S512x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x256.size a ≤ S4096x2048.size a
  hwx0_11 : ∀ i : grid0.Coords, EltTy.bits .f32 = 32 ∨ (Rect.block (s := S4096x2048) S512x256.size (cc0_transform_11 i) (hinb0_11 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_v1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S256x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg2) S512x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v6_0) S512x256.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v6_1) S512x256.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x4096 : Shape := ⟨2, ![2048, 4096]⟩
abbrev S2048 : Shape := ⟨1, ![2048]⟩
abbrev S4096x4096 : Shape := ⟨2, ![4096, 4096]⟩
abbrev S8192x4096 : Shape := ⟨2, ![8192, 4096]⟩
abbrev S8192 : Shape := ⟨1, ![8192]⟩
abbrev S4096x8192 : Shape := ⟨2, ![4096, 8192]⟩
abbrev S1x8192 : Shape := ⟨2, ![1, 8192]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x4096, .f32⟩
  | .hbm, ⟨4, _⟩ => ⟨S2048, .f32⟩
  | .hbm, ⟨5, _⟩ => ⟨S2048x4096, .f32⟩
  | .hbm, ⟨6, _⟩ => ⟨S2048, .f32⟩
  | .hbm, ⟨7, _⟩ => ⟨S2048x4096, .f32⟩
  | .hbm, ⟨8, _⟩ => ⟨S2048, .f32⟩
  | .hbm, ⟨9, _⟩ => ⟨S2048x4096, .f32⟩
  | .hbm, ⟨10, _⟩ => ⟨S2048, .f32⟩
  | .hbm, ⟨11, _⟩ => ⟨S4096x4096, .f32⟩
  | .hbm, ⟨12, _⟩ => ⟨S8192x4096, .f32⟩
  | .hbm, ⟨13, _⟩ => ⟨S8192, .f32⟩
  | .hbm, ⟨14, _⟩ => ⟨S4096x8192, .f32⟩
  | .hbm, ⟨15, _⟩ => ⟨S4096x8192, .f32⟩
  | .hbm, ⟨16, _⟩ => ⟨S1x8192, .f32⟩
  | .hbm, ⟨17, _⟩ => ⟨S4096x8192, .f32⟩
  | .hbm, ⟨18, _⟩ => ⟨S4096x8192, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S4096x2048, .f32⟩
  | .hbm, ⟨42, _⟩ => ⟨S4096x2048, .f32⟩
  | .hbm, ⟨43, _⟩ => ⟨S_, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  concatenates_S4096x2048_S4096x2048_S4096x4096_d1 : Shape.Concatenates [S4096x2048, S4096x2048] S4096x4096 1
  concatenates_S2048x4096_S2048x4096_S2048x4096_S2048x4096_S8192x4096_d0 : Shape.Concatenates [S2048x4096, S2048x4096, S2048x4096, S2048x4096] S8192x4096 0
  concatenates_S2048_S2048_S2048_S2048_S8192_d0 : Shape.Concatenates [S2048, S2048, S2048, S2048] S8192 0
  transposes_S8192x4096_S4096x8192_1_0 : S8192x4096.Transposes [1, 0] S4096x8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  slices_S4096x8192_S4096x2048_0_0 : S4096x8192.Slices ![0, 0] S4096x2048
  bcast_S_S4096x2048 : S_.BroadcastsInDim S4096x2048 (![] : Fin 0 → Fin S4096x2048.rank)
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  dot_S4096x4096_S4096x8192_S4096x8192_1_0_0_1_n_n_wf : DotDims.WF S4096x4096 S4096x8192 S4096x8192 [1] [0] [0] [1] [] []

variable [Facts₀]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf

class Facts : Prop extends Facts₀ where

variable [Facts]
-- ==== Proof.LibRowOps.lean ====
/-
  Dense layers and row concatenations read one row at a time, at the ideal values.

  A network of dense layers acts on each row of a row-major array by itself.  This file fixes that row-level
  vocabulary — `dense` (a row times a weight matrix, plus a bias), `relu`, `cat2` / `cat3` / `cat4` (rows
  laid end to end) — and reads the array-level operations of both spellings at an index `(n, h)`:
  a kernel's `tpu.matmul` of narrowed operands into a zero accumulator plus a bias cast to one row and
  broadcast down the rows; the host's `dot_general` plus a bias broadcast in two steps; the positive part
  against a zero splat; a concatenation along the columns; the host's minimum over a middle axis of extent four; and the host's
  expansion of the logistic function.
  Everything is generic in the extents.
-/
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace RowOps

open Idealize.ShloMosaic Idealize.ShloMosaic.ValueIdx

/-! ## The row-level vocabulary -/

/-- A dense layer on one row: the row times the weight matrix, plus the bias. -/
def dense {K H : ℕ} (W : (⟨2, ![K, H]⟩ : Shape).Idx → EReal) (b : (⟨1, ![H]⟩ : Shape).Idx → EReal)
    (x : Fin K → EReal) : Fin H → EReal :=
  fun h => (∑ k : Fin K, x k * W (ix2 k h)) + b (ix1 h)

/-- The positive part, against the zero both programs spell as the all-zero word. -/
def relu {H : ℕ} (x : Fin H → EReal) : Fin H → EReal :=
  fun h => max (x h) (Ideal.ofBits .f32 0x00000000#32)

/-- Two rows laid end to end (a position past both reads zero; none is ever read). -/
def cat2 {A B : ℕ} (C : ℕ) (x : Fin A → EReal) (y : Fin B → EReal) : Fin C → EReal :=
  fun j => if h : j.val < A then x ⟨j.val, h⟩ else if h2 : j.val - A < B then y ⟨j.val - A, h2⟩ else 0

/-- Three rows laid end to end. -/
def cat3 {A B D : ℕ} (C : ℕ) (x : Fin A → EReal) (y : Fin B → EReal) (z : Fin D → EReal) : Fin C → EReal :=
  fun j => if h : j.val < A then x ⟨j.val, h⟩ else if h2 : j.val - A < B then y ⟨j.val - A, h2⟩
    else if h3 : j.val - A - B < D then z ⟨j.val - A - B, h3⟩ else 0

/-- Four rows laid end to end. -/
def cat4 {A B D E : ℕ} (C : ℕ) (x : Fin A → EReal) (y : Fin B → EReal) (z : Fin D → EReal) (w : Fin E → EReal) :
    Fin C → EReal :=
  fun j => if h : j.val < A then x ⟨j.val, h⟩ else if h2 : j.val - A < B then y ⟨j.val - A, h2⟩
    else if h3 : j.val - A - B < D then z ⟨j.val - A - B, h3⟩
    else if h4 : j.val - A - B - D < E then w ⟨j.val - A - B - D, h4⟩ else 0

/-! ## A plain matrix product read at an index -/

section Plain
variable {M K N : ℕ}

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum, re-indexed by the one contracted coordinate. -/
theorem plain_sum {φ₁ φ₂ : FTy} (l : FVec Ideal ⟨2, ![M, K]⟩ φ₁) (r : FVec Ideal ⟨2, ![K, N]⟩ φ₂) (p : Fin M) (q : Fin N) :
    (∑ k : (DotDims.plain M K N).contr.Idx, l ((DotDims.plain M K N).lhsIdx (ix2 p q) k) * r ((DotDims.plain M K N).rhsIdx (ix2 p q) k))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain matrix product into the zero splat, at `(p, q)`: row `p` of the left against column `q` of the right. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 p k) * r (ix2 k q) := by
  subst hd
  show FloatOps.matmul (DotDims.plain M K N) prec l r (constant ⟨2, ![M, N]⟩ .f32 0x00000000#32) (ix2 p q) = _
  rw [Ideal.matmul_constant_zero_apply]
  exact plain_sum l r p q

/-- The host's plain matrix product at `(p, q)`: the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum l r p q

end Plain

/-! ## A bias along the columns, in both spellings -/

section Bias
variable {R H : ℕ} {α : Type}

/-- The kernel's spelling: the bias cast to one row, that row broadcast down the rows. -/
theorem bias_cast_apply (b : (⟨1, ![H]⟩ : Shape).Idx → α) (hsc : (⟨1, ![H]⟩ : Shape).ShapeCasts ⟨2, ![1, H]⟩)
    (hbc : (⟨2, ![1, H]⟩ : Shape).Broadcasts ⟨2, ![R, H]⟩) (n : Fin R) (h : Fin H) :
    broadcastTo ⟨2, ![R, H]⟩ (shapeCast ⟨2, ![1, H]⟩ b hsc) hbc (ix2 n h) = b (ix1 h) := by
  rw [broadcastTo_1b_ab_apply, shapeCast_a_1a_apply]

/-- The host's spelling: the bias broadcast to one row, then down the rows. -/
theorem bias_bcast_apply (b : (⟨1, ![H]⟩ : Shape).Idx → α) (d1 : Fin 1 → Fin 2) (hd1 : d1 0 = 1)
    (h1 : (⟨1, ![H]⟩ : Shape).BroadcastsInDim ⟨2, ![1, H]⟩ d1) (d2 : Fin 2 → Fin 2) (hd20 : d2 0 = 0) (hd21 : d2 1 = 1)
    (h2 : (⟨2, ![1, H]⟩ : Shape).BroadcastsInDim ⟨2, ![R, H]⟩ d2) (n : Fin R) (h : Fin H) :
    broadcastInDim ⟨2, ![R, H]⟩ d2 h2 (broadcastInDim ⟨2, ![1, H]⟩ d1 h1 b) (ix2 n h) = b (ix1 h) := by
  rw [broadcastInDim_apply d2 h2 _ (ix2 n h) (ix2 (0 : Fin 1) h) (fun a => by
    match a with
    | ⟨0, _⟩ => show 0 = if (1 : ℕ) = 1 then 0 else _; rw [if_pos rfl]
    | ⟨1, _⟩ =>
      show h.val = if H = 1 then 0 else (ix2 n h (d2 1)).val
      rw [hd21]
      split
      · have := h.isLt; omega
      · rfl)]
  exact broadcastInDim_apply d1 h1 b (ix2 (0 : Fin 1) h) (ix1 h) (fun a => by
    match a with
    | ⟨0, _⟩ =>
      show h.val = if H = 1 then 0 else (ix2 (0 : Fin 1) h (d1 0)).val
      rw [hd1]
      split
      · have := h.isLt; omega
      · rfl)

end Bias

/-! ## A dense layer of an array, read at a row -/

section Dense
variable {R K H : ℕ}

/-- The kernel's dense layer: the narrowed operands' product into the zero splat, plus the bias row. -/
theorem dense_kernel_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (hy : FTy.bf16.bits < FTy.f32.bits) (hW : FTy.bf16.bits < FTy.f32.bits)
    (hsc : (⟨1, ![H]⟩ : Shape).ShapeCasts ⟨2, ![1, H]⟩) (hbc : (⟨2, ![1, H]⟩ : Shape).Broadcasts ⟨2, ![R, H]⟩)
    (n : Fin R) (h : Fin H) :
    addf (matmul d none (truncf .bf16 y hy) (truncf .bf16 W hW) (constant ⟨2, ![R, H]⟩ .f32 0x00000000#32))
        (broadcastTo ⟨2, ![R, H]⟩ (shapeCast ⟨2, ![1, H]⟩ b hsc) hbc) (ix2 n h)
      = dense W b (fun k => y (ix2 n k)) h := by
  show matmul d none (truncf .bf16 y hy) (truncf .bf16 W hW) (constant ⟨2, ![R, H]⟩ .f32 0x00000000#32) (ix2 n h)
      + broadcastTo ⟨2, ![R, H]⟩ (shapeCast ⟨2, ![1, H]⟩ b hsc) hbc (ix2 n h) = _
  rw [matmul_plain_apply d hd, bias_cast_apply]
  rfl

/-- The host's dense layer: `dot_general` plus the bias broadcast in two steps. -/
theorem dense_host_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (d1 : Fin 1 → Fin 2) (hd1 : d1 0 = 1) (h1 : (⟨1, ![H]⟩ : Shape).BroadcastsInDim ⟨2, ![1, H]⟩ d1)
    (d2 : Fin 2 → Fin 2) (hd20 : d2 0 = 0) (hd21 : d2 1 = 1) (h2 : (⟨2, ![1, H]⟩ : Shape).BroadcastsInDim ⟨2, ![R, H]⟩ d2)
    (n : Fin R) (h : Fin H) :
    addf (Host.dotGeneral d none y W) (broadcastInDim ⟨2, ![R, H]⟩ d2 h2 (broadcastInDim ⟨2, ![1, H]⟩ d1 h1 b)) (ix2 n h)
      = dense W b (fun k => y (ix2 n k)) h := by
  show Host.dotGeneral d none y W (ix2 n h)
      + broadcastInDim ⟨2, ![R, H]⟩ d2 h2 (broadcastInDim ⟨2, ![1, H]⟩ d1 h1 b) (ix2 n h) = _
  rw [dotGeneral_plain_apply d hd, bias_bcast_apply b d1 hd1 h1 d2 hd20 hd21 h2]
  rfl

/-- The kernel's positive part: the maximum with a splat of the zero word. -/
theorem relu_kernel_apply (z : FVec Ideal ⟨2, ![R, H]⟩ .f32) (n : Fin R) (h : Fin H) :
    maximumf z (broadcast ⟨2, ![R, H]⟩ (Scalar.ofBits (F := Ideal) .f32 0x00000000#32)) (ix2 n h)
      = relu (fun j => z (ix2 n j)) h := rfl

/-- The host's positive part: the maximum with the zero constant broadcast from a scalar. -/
theorem relu_host_apply (z : FVec Ideal ⟨2, ![R, H]⟩ .f32) (d0 : Fin 0 → Fin 2)
    (hb : (⟨0, ![]⟩ : Shape).BroadcastsInDim ⟨2, ![R, H]⟩ d0) (n : Fin R) (h : Fin H) :
    maximumf z (broadcastInDim ⟨2, ![R, H]⟩ d0 hb (constant (F := Ideal) ⟨0, ![]⟩ .f32 0x00000000#32)) (ix2 n h)
      = relu (fun j => z (ix2 n j)) h := rfl

end Dense

/-! ## A concatenation along the columns, read at a row -/

section Cat
variable {R A B D E C : ℕ}

/-- Two arrays joined along the columns: row `n` of the result is the two rows laid end to end. -/
theorem cat2_apply (x : (⟨2, ![R, A]⟩ : Shape).Idx → EReal) (y : (⟨2, ![R, B]⟩ : Shape).Idx → EReal)
    (hc : Shape.Concatenates [(⟨2, ![R, A]⟩ : Shape), ⟨2, ![R, B]⟩] ⟨2, ![R, C]⟩ 1) (hC : C = A + B) (n : Fin R) (j : Fin C) :
    concatenate ⟨2, ![R, C]⟩ 1 [⟨⟨2, ![R, A]⟩, x⟩, ⟨⟨2, ![R, B]⟩, y⟩] hc (ix2 n j)
      = cat2 C (fun k => x (ix2 n k)) (fun k => y (ix2 n k)) j := by
  unfold cat2
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · have h2 : j.val - A < B := by omega
    rw [dif_neg hj, dif_pos h2]
    exact concatenate_apply_piece (1 : Fin (⟨2, ![R, C]⟩ : Shape).rank) [⟨⟨2, ![R, A]⟩, x⟩, ⟨⟨2, ![R, B]⟩, y⟩] hc (ix2 n j) 1 (by simp) ⟨2, ![R, B]⟩ y rfl rfl A
      (by simp) (ix2 n ⟨j.val - A, h2⟩) (fun b hb => by
        match b with
        | ⟨0, _⟩ => rfl
        | ⟨1, _⟩ => exact absurd (Fin.ext rfl) hb) (by show A + (j.val - A) = j.val; omega)

/-- Three arrays joined along the columns. -/
theorem cat3_apply (x : (⟨2, ![R, A]⟩ : Shape).Idx → EReal) (y : (⟨2, ![R, B]⟩ : Shape).Idx → EReal)
    (z : (⟨2, ![R, D]⟩ : Shape).Idx → EReal)
    (hc : Shape.Concatenates [(⟨2, ![R, A]⟩ : Shape), ⟨2, ![R, B]⟩, ⟨2, ![R, D]⟩] ⟨2, ![R, C]⟩ 1) (hC : C = A + B + D)
    (n : Fin R) (j : Fin C) :
    concatenate ⟨2, ![R, C]⟩ 1 [⟨⟨2, ![R, A]⟩, x⟩, ⟨⟨2, ![R, B]⟩, y⟩, ⟨⟨2, ![R, D]⟩, z⟩] hc (ix2 n j)
      = cat3 C (fun k => x (ix2 n k)) (fun k => y (ix2 n k)) (fun k => z (ix2 n k)) j := by
  unfold cat3
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · have h3 : j.val - A - B < D := by omega
      rw [dif_neg h2, dif_pos h3]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 2 (by simp) ⟨2, ![R, D]⟩ z rfl rfl (A + B)
        (by simp) (ix2 n ⟨j.val - A - B, h3⟩) (fun b hb => by
          match b with
          | ⟨0, _⟩ => rfl
          | ⟨1, _⟩ => exact absurd (Fin.ext rfl) hb) (by show A + B + (j.val - A - B) = j.val; omega)

/-- Four arrays joined along the columns. -/
theorem cat4_apply (x : (⟨2, ![R, A]⟩ : Shape).Idx → EReal) (y : (⟨2, ![R, B]⟩ : Shape).Idx → EReal)
    (z : (⟨2, ![R, D]⟩ : Shape).Idx → EReal) (w : (⟨2, ![R, E]⟩ : Shape).Idx → EReal)
    (hc : Shape.Concatenates [(⟨2, ![R, A]⟩ : Shape), ⟨2, ![R, B]⟩, ⟨2, ![R, D]⟩, ⟨2, ![R, E]⟩] ⟨2, ![R, C]⟩ 1)
    (hC : C = A + B + D + E) (n : Fin R) (j : Fin C) :
    concatenate ⟨2, ![R, C]⟩ 1 [⟨⟨2, ![R, A]⟩, x⟩, ⟨⟨2, ![R, B]⟩, y⟩, ⟨⟨2, ![R, D]⟩, z⟩, ⟨⟨2, ![R, E]⟩, w⟩] hc (ix2 n j)
      = cat4 C (fun k => x (ix2 n k)) (fun k => y (ix2 n k)) (fun k => z (ix2 n k)) (fun k => w (ix2 n k)) j := by
  unfold cat4
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · rw [dif_neg h2]
      by_cases h3 : j.val - A - B < D
      · rw [dif_pos h3]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 2 (by simp) ⟨2, ![R, D]⟩ z rfl rfl (A + B)
          (by simp) (ix2 n ⟨j.val - A - B, h3⟩) (fun b hb => by
            match b with
            | ⟨0, _⟩ => rfl
            | ⟨1, _⟩ => exact absurd (Fin.ext rfl) hb) (by show A + B + (j.val - A - B) = j.val; omega)
      · have h4 : j.val - A - B - D < E := by omega
        rw [dif_neg h3, dif_pos h4]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 3 (by simp) ⟨2, ![R, E]⟩ w rfl rfl
          (A + B + D) (by simp; omega) (ix2 n ⟨j.val - A - B - D, h4⟩) (fun b hb => by
            match b with
            | ⟨0, _⟩ => rfl
            | ⟨1, _⟩ => exact absurd (Fin.ext rfl) hb) (by show A + B + D + (j.val - A - B - D) = j.val; omega)

end Cat

/-! ## The host's minimum over a middle axis of extent four -/

section Min4
variable {R H : ℕ}

/-- A fold of a commutative, associative operation over the four positions, written out. -/
theorem fold_univ_fin4 {β : Type} (op : β → β → β) [Std.Commutative op] [Std.Associative op] (init : β) (f : Fin 4 → β) :
    (Finset.univ : Finset (Fin 4)).fold op init f = op (f 0) (op (f 1) (op (f 2) (op (f 3) init))) := by
  have hu : (Finset.univ : Finset (Fin 4)) = insert 0 (insert 1 (insert 2 {3})) := by decide
  rw [hu, Finset.fold_insert (by decide), Finset.fold_insert (by decide), Finset.fold_insert (by decide), Finset.fold_singleton]

/-- The reduced index `(n, c)` with the middle coordinate `k` put back is `(n, k, c)`. -/
theorem lift_mid (h : (⟨3, ![R, 4, H]⟩ : Shape).Reduces [1] (⟨2, ![R, H]⟩ : Shape)) (n : Fin R) (c : Fin H)
    (k : Fin ((⟨3, ![R, 4, H]⟩ : Shape).size 1)) : h.lift (ix2 n c) k = ix3 n (⟨k.val, k.isLt⟩ : Fin 4) c := by
  funext a; apply Fin.ext
  fin_cases a <;> rfl

/-- From +∞ the host's reduce with a minimum body over the middle axis, at `(n, c)`, is the least of the four entries. -/
theorem reduceMin4_apply (z : FVec Ideal ⟨3, ![R, 4, H]⟩ .f32)
    (h' : (⟨3, ![R, 4, H]⟩ : Shape).ReducesTo [1] (⟨2, ![R, H]⟩ : Shape))
    (h : (⟨3, ![R, 4, H]⟩ : Shape).Reduces [1] (⟨2, ![R, H]⟩ : Shape)) (hu : 0 < (⟨0, ![]⟩ : Shape).numel)
    (n : Fin R) (c : Fin H) :
    Host.reduce FloatOps.minimumf z (constant (F := Ideal) (⟨0, ![]⟩ : Shape) .f32 0x7F800000#32) h' hu (ix2 n c)
      = min (min (min (z (ix3 n 0 c)) (z (ix3 n 1 c))) (z (ix3 n 2 c))) (z (ix3 n 3 c)) := by
  rw [Host.reduce_eq_fold_single FloatOps.minimumf z _ h' h hu]
  have e := fold_univ_fin4 (min : Ideal .f32 → Ideal .f32 → Ideal .f32) (Ideal.ofBits .f32 0x7F800000#32)
    (fun k : Fin 4 => z (ix3 n k c))
  have htop : ∀ y : Ideal .f32, min y (Ideal.ofBits .f32 0x7F800000#32) = y := by
    intro y; show min y (Ideal.ofBits .f32 0x7F800000#32) = y; simp [Ideal.ofBits, Ideal.ieee]
  rw [htop, ← min_assoc, ← min_assoc] at e
  refine Eq.trans ?_ e
  have hf : (z ∘ h.lift (ix2 n c)) = fun k : Fin 4 => z (ix3 n k c) := funext fun k => congrArg z (lift_mid h n c k)
  exact congrArg (fun f => Finset.fold min (Ideal.ofBits .f32 0x7F800000#32) f (Finset.univ : Finset (Fin 4))) hf

end Min4

/-! ## Layout steps of a kernel body, read at a row -/

section Layout
variable {R P H : ℕ} {α : Type}

/-- One column broadcast across the columns: at `(n, h)` the column's entry in row `n`. -/
theorem broadcastTo_a1_ab_apply (v : (⟨2, ![R, 1]⟩ : Shape).Idx → α) (hbc : (⟨2, ![R, 1]⟩ : Shape).Broadcasts ⟨2, ![R, H]⟩)
    (n : Fin R) (h : Fin H) : broadcastTo ⟨2, ![R, H]⟩ v hbc (ix2 n h) = v (ix2 n (0 : Fin 1)) := by
  refine broadcastTo_apply v hbc (ix2 n h) (ix2 n (0 : Fin 1)) fun ax => ?_
  match ax with
  | ⟨0, _⟩ =>
    show n.val = if R = 1 then 0 else n.val
    split
    · have := n.isLt; omega
    · rfl
  | ⟨1, _⟩ => show 0 = if (1 : ℕ) = 1 then 0 else h.val; rw [if_pos rfl]

/-- A middle unit axis dropped by a shape cast: `(n, k)` reads `(n, 0, k)`. -/
theorem shapeCast_a1b_ab_apply (v : (⟨3, ![R, 1, H]⟩ : Shape).Idx → α) (hsc : (⟨3, ![R, 1, H]⟩ : Shape).ShapeCasts ⟨2, ![R, H]⟩)
    (n : Fin R) (k : Fin H) : shapeCast ⟨2, ![R, H]⟩ v hsc (ix2 n k) = v (ix3 n (0 : Fin 1) k) :=
  shapeCast_apply v hsc _ _ (by
    rw [Shape.rowMajor_val_three, Shape.rowMajor_val_two]
    show (n.val * 1 + 0) * H + k.val = n.val * H + k.val
    rw [Nat.mul_one, Nat.add_zero])

/-- A load of the slab at middle position `s` of a rank-3 buffer: `(n, 0, k)` of the slab is `(n, s, k)` of the buffer. -/
theorem ld_mid_apply {Val : EltTy → Type} {e : EltTy} (x : (⟨3, ![R, P, H]⟩ : Shape).Idx → Val e) (s : ℕ) (hs : s < P)
    (inb : ∀ a, (![0, s, 0] : Fin 3 → ℕ) a + (⟨3, ![R, 1, H]⟩ : Shape).size a ≤ (⟨3, ![R, P, H]⟩ : Shape).size a)
    (n : Fin R) (k : Fin H) :
    View.ld x (Rect.unit (s := ⟨3, ![R, P, H]⟩) ![0, s, 0] (⟨3, ![R, 1, H]⟩ : Shape).size inb) (ix3 n (0 : Fin 1) k)
      = x (ix3 n (⟨s, hs⟩ : Fin P) k) := by
  show x ((Rect.unit (s := ⟨3, ![R, P, H]⟩) ![0, s, 0] (⟨3, ![R, 1, H]⟩ : Shape).size inb).emb (ix3 n (0 : Fin 1) k)) = _
  refine congrArg x (funext fun a => Fin.ext ?_)
  match a with
  | ⟨0, _⟩ => show 0 + 1 * n.val = n.val; omega
  | ⟨1, _⟩ => show s + 1 * 0 = s; omega
  | ⟨2, _⟩ => show 0 + 1 * k.val = k.val; omega

/-- A kernel's logistic function, entry by entry. -/
theorem logistic_apply {s : Shape} (a : FVec Ideal s .f32) (i : s.Idx) : logistic a i = Ideal.logistic (a i) := rfl

end Layout

/-! ## The host's dense layer with its printed broadcast dimensions, and its logistic function -/

section Host
variable {R K H : ℕ}

/-- `dense_host_apply` at the usual broadcast dimensions: the bias to axis 1 of one row, that row to both axes. -/
theorem dense_host_apply' (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (h1 : (⟨1, ![H]⟩ : Shape).BroadcastsInDim ⟨2, ![1, H]⟩ ![1]) (h2 : (⟨2, ![1, H]⟩ : Shape).BroadcastsInDim ⟨2, ![R, H]⟩ ![0, 1])
    (n : Fin R) (h : Fin H) :
    addf (Host.dotGeneral d none y W) (broadcastInDim ⟨2, ![R, H]⟩ ![0, 1] h2 (broadcastInDim ⟨2, ![1, H]⟩ ![1] h1 b)) (ix2 n h)
      = dense W b (fun k => y (ix2 n k)) h :=
  dense_host_apply d hd y W b _ rfl h1 _ rfl rfl h2 n h

/-- The logistic function spelt out on the host — one over one plus the exponential of the negation,
    the ones broadcast from a scalar constant — is the logistic function of the entry. -/
theorem logistic_host_apply {s : Shape} (z : FVec Ideal s .f32) (d0 : Fin 0 → Fin s.rank)
    (hb1 hb2 : (⟨0, ![]⟩ : Shape).BroadcastsInDim s d0) (i : s.Idx) :
    Host.divf (broadcastInDim s d0 hb1 (constant (F := Ideal) ⟨0, ![]⟩ .f32 0x3F800000#32))
        (addf (broadcastInDim s d0 hb2 (constant (F := Ideal) ⟨0, ![]⟩ .f32 0x3F800000#32)) (Host.exp (Host.negf z))) i
      = Ideal.logistic (z i) := by
  show FloatOps.hostDivf (Ideal.ofBits .f32 0x3F800000#32)
      (FloatOps.addf (Ideal.ofBits .f32 0x3F800000#32) (FloatOps.hostUnary .exp (FloatOps.hostNegf (z i)))) = _
  rw [Ideal.ofBits_one_f32]
  rfl

end Host

end RowOps

end
-- ==== Proof.Spec.lean ====
/-
  One step of an LSTM cell, entry by entry, on the extended reals.

  The step joins each batch row of the hidden state with the same row of the input, takes four affine gates of the joined
  row (one weight matrix and one bias each, the weights stored one output feature per row), squashes three of them with the
  logistic function and the fourth with the hyperbolic tangent, and combines them with the old cell state:

    c' = σ(f) · c + σ(i) · tanh(g),      h' = σ(o) · tanh(c').

  This file states that as two functions of the argument arrays, index by index.
-/
import Idealize.ShloMosaic.Lib.ValueIdx
import Idealize.ShloMosaic.PureOps.Ideal.Laws
import proofs.«178720_j36086315221096_1_alg».proof.Proof.LibRowOps

noncomputable section

open scoped BigOperators

namespace LstmCell

open Idealize.ShloMosaic Idealize.ShloMosaic.ValueIdx

/-- Activations: 4096 batch rows of 2048 features. -/
abbrev Act : Shape := ⟨2, ![4096, 2048]⟩
/-- A gate's weights: 2048 output features, each a row over the 4096 joined input features. -/
abbrev Wt : Shape := ⟨2, ![2048, 4096]⟩
/-- A gate's bias. -/
abbrev Bs : Shape := ⟨1, ![2048]⟩

/-- Batch row `p` of the joined input: the hidden state's row, then the input's row. -/
def joined (hid x : Act.Idx → EReal) (p : Fin 4096) : Fin 4096 → EReal :=
  RowOps.cat2 4096 (fun k : Fin 2048 => hid (ix2 p k)) (fun k : Fin 2048 => x (ix2 p k))

/-- A gate before its squashing, at batch row `p` and feature `j`: the joined row against row `j` of the weights, plus the bias. -/
def gate (hid x : Act.Idx → EReal) (W : Wt.Idx → EReal) (b : Bs.Idx → EReal) (p : Fin 4096) (j : Fin 2048) : EReal :=
  (∑ k : Fin 4096, joined hid x p k * W (ix2 j k)) + b (ix1 j)

/-- The new cell state: the forget gate times the old state plus the input gate times the candidate. -/
def cellNext (x hid ct : Act.Idx → EReal) (Wf : Wt.Idx → EReal) (bf : Bs.Idx → EReal) (Wi : Wt.Idx → EReal) (bi : Bs.Idx → EReal)
    (Wg : Wt.Idx → EReal) (bg : Bs.Idx → EReal) : Act.Idx → EReal := fun i =>
  Ideal.logistic (gate hid x Wf bf (i 0) (i 1)) * ct i
    + Ideal.logistic (gate hid x Wi bi (i 0) (i 1)) * Ideal.tanh (gate hid x Wg bg (i 0) (i 1))

/-- The new hidden state: the output gate times the squashed new cell state. -/
def hiddenNext (x hid ct : Act.Idx → EReal) (Wf : Wt.Idx → EReal) (bf : Bs.Idx → EReal) (Wi : Wt.Idx → EReal) (bi : Bs.Idx → EReal)
    (Wo : Wt.Idx → EReal) (bo : Bs.Idx → EReal) (Wg : Wt.Idx → EReal) (bg : Bs.Idx → EReal) : Act.Idx → EReal := fun i =>
  Ideal.logistic (gate hid x Wo bo (i 0) (i 1)) * Ideal.tanh (cellNext x hid ct Wf bf Wi bi Wg bg i)

end LstmCell

end
-- ==== Proof.LibStackOps.lean ====
/-
  Arrays stacked along their first axis, and a matrix product against a right operand stored one output column per row.

  Four arrays of one shape laid one after another along axis 0 — four weight matrices into one tall matrix, four bias
  vectors into one long vector — are read back piece by piece: a row of piece `g` sits `g` piece-heights down the stack.
  A `tpu.matmul` whose dimension numbers contract BOTH operands' last axes (the right operand holds one output column
  per row, so no transpose is ever formed) is read at `(p, q)` as row `p` of the left operand against row `q` of the
  right.  Everything is generic in the extents.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace StackOps

open Idealize.ShloMosaic Idealize.ShloMosaic.ValueIdx

/-! ## Four matrices stacked along the rows -/

section Rows
variable {R C T : ℕ} {α : Type}

/-- A row of the first piece is that row of the stack. -/
theorem stack4_rows_apply0 (x0 x1 x2 x3 : (⟨2, ![R, C]⟩ : Shape).Idx → α)
    (hc : Shape.Concatenates [(⟨2, ![R, C]⟩ : Shape), ⟨2, ![R, C]⟩, ⟨2, ![R, C]⟩, ⟨2, ![R, C]⟩] ⟨2, ![T, C]⟩ 0)
    (J : Fin T) (q : Fin R) (k : Fin C) (hJ : J.val = q.val) :
    concatenate ⟨2, ![T, C]⟩ 0 [⟨⟨2, ![R, C]⟩, x0⟩, ⟨⟨2, ![R, C]⟩, x1⟩, ⟨⟨2, ![R, C]⟩, x2⟩, ⟨⟨2, ![R, C]⟩, x3⟩] hc (ix2 J k)
      = x0 (ix2 q k) :=
  concatenate_apply_piece (0 : Fin (⟨2, ![T, C]⟩ : Shape).rank) [⟨⟨2, ![R, C]⟩, x0⟩, ⟨⟨2, ![R, C]⟩, x1⟩, ⟨⟨2, ![R, C]⟩, x2⟩, ⟨⟨2, ![R, C]⟩, x3⟩] hc (ix2 J k) 0 (by simp)
    ⟨2, ![R, C]⟩ x0 rfl rfl 0 rfl (ix2 q k) (fun b hb => by
      match b with
      | ⟨0, _⟩ => exact absurd (Fin.ext rfl) hb
      | ⟨1, _⟩ => rfl) (by show 0 + q.val = J.val; omega)

/-- A row of the second piece sits one piece-height down. -/
theorem stack4_rows_apply1 (x0 x1 x2 x3 : (⟨2, ![R, C]⟩ : Shape).Idx → α)
    (hc : Shape.Concatenates [(⟨2, ![R, C]⟩ : Shape), ⟨2, ![R, C]⟩, ⟨2, ![R, C]⟩, ⟨2, ![R, C]⟩] ⟨2, ![T, C]⟩ 0)
    (J : Fin T) (q : Fin R) (k : Fin C) (hJ : J.val = R + q.val) :
    concatenate ⟨2, ![T, C]⟩ 0 [⟨⟨2, ![R, C]⟩, x0⟩, ⟨⟨2, ![R, C]⟩, x1⟩, ⟨⟨2, ![R, C]⟩, x2⟩, ⟨⟨2, ![R, C]⟩, x3⟩] hc (ix2 J k)
      = x1 (ix2 q k) :=
  concatenate_apply_piece (0 : Fin (⟨2, ![T, C]⟩ : Shape).rank) [⟨⟨2, ![R, C]⟩, x0⟩, ⟨⟨2, ![R, C]⟩, x1⟩, ⟨⟨2, ![R, C]⟩, x2⟩, ⟨⟨2, ![R, C]⟩, x3⟩] hc (ix2 J k) 1 (by simp)
    ⟨2, ![R, C]⟩ x1 rfl rfl R (by simp) (ix2 q k) (fun b hb => by
      match b with
      | ⟨0, _⟩ => exact absurd (Fin.ext rfl) hb
      | ⟨1, _⟩ => rfl) (by show R + q.val = J.val; omega)

/-- A row of the third piece sits two piece-heights down. -/
theorem stack4_rows_apply2 (x0 x1 x2 x3 : (⟨2, ![R, C]⟩ : Shape).Idx → α)
    (hc : Shape.Concatenates [(⟨2, ![R, C]⟩ : Shape), ⟨2, ![R, C]⟩, ⟨2, ![R, C]⟩, ⟨2, ![R, C]⟩] ⟨2, ![T, C]⟩ 0)
    (J : Fin T) (q : Fin R) (k : Fin C) (hJ : J.val = R + R + q.val) :
    concatenate ⟨2, ![T, C]⟩ 0 [⟨⟨2, ![R, C]⟩, x0⟩, ⟨⟨2, ![R, C]⟩, x1⟩, ⟨⟨2, ![R, C]⟩, x2⟩, ⟨⟨2, ![R, C]⟩, x3⟩] hc (ix2 J k)
      = x2 (ix2 q k) :=
  concatenate_apply_piece (0 : Fin (⟨2, ![T, C]⟩ : Shape).rank) [⟨⟨2, ![R, C]⟩, x0⟩, ⟨⟨2, ![R, C]⟩, x1⟩, ⟨⟨2, ![R, C]⟩, x2⟩, ⟨⟨2, ![R, C]⟩, x3⟩] hc (ix2 J k) 2 (by simp)
    ⟨2, ![R, C]⟩ x2 rfl rfl (R + R) (by simp) (ix2 q k) (fun b hb => by
      match b with
      | ⟨0, _⟩ => exact absurd (Fin.ext rfl) hb
      | ⟨1, _⟩ => rfl) (by show R + R + q.val = J.val; omega)

/-- A row of the fourth piece sits three piece-heights down. -/
theorem stack4_rows_apply3 (x0 x1 x2 x3 : (⟨2, ![R, C]⟩ : Shape).Idx → α)
    (hc : Shape.Concatenates [(⟨2, ![R, C]⟩ : Shape), ⟨2, ![R, C]⟩, ⟨2, ![R, C]⟩, ⟨2, ![R, C]⟩] ⟨2, ![T, C]⟩ 0)
    (J : Fin T) (q : Fin R) (k : Fin C) (hJ : J.val = R + R + R + q.val) :
    concatenate ⟨2, ![T, C]⟩ 0 [⟨⟨2, ![R, C]⟩, x0⟩, ⟨⟨2, ![R, C]⟩, x1⟩, ⟨⟨2, ![R, C]⟩, x2⟩, ⟨⟨2, ![R, C]⟩, x3⟩] hc (ix2 J k)
      = x3 (ix2 q k) :=
  concatenate_apply_piece (0 : Fin (⟨2, ![T, C]⟩ : Shape).rank) [⟨⟨2, ![R, C]⟩, x0⟩, ⟨⟨2, ![R, C]⟩, x1⟩, ⟨⟨2, ![R, C]⟩, x2⟩, ⟨⟨2, ![R, C]⟩, x3⟩] hc (ix2 J k) 3 (by simp)
    ⟨2, ![R, C]⟩ x3 rfl rfl (R + R + R) (by simp; omega) (ix2 q k) (fun b hb => by
      match b with
      | ⟨0, _⟩ => exact absurd (Fin.ext rfl) hb
      | ⟨1, _⟩ => rfl) (by show R + R + R + q.val = J.val; omega)

end Rows

/-! ## Four vectors laid end to end -/

section Vecs
variable {R T : ℕ} {α : Type}

/-- An entry of the first piece. -/
theorem stack4_vec_apply0 (x0 x1 x2 x3 : (⟨1, ![R]⟩ : Shape).Idx → α)
    (hc : Shape.Concatenates [(⟨1, ![R]⟩ : Shape), ⟨1, ![R]⟩, ⟨1, ![R]⟩, ⟨1, ![R]⟩] ⟨1, ![T]⟩ 0)
    (J : Fin T) (q : Fin R) (hJ : J.val = q.val) :
    concatenate ⟨1, ![T]⟩ 0 [⟨⟨1, ![R]⟩, x0⟩, ⟨⟨1, ![R]⟩, x1⟩, ⟨⟨1, ![R]⟩, x2⟩, ⟨⟨1, ![R]⟩, x3⟩] hc (ix1 J) = x0 (ix1 q) :=
  concatenate_apply_piece (0 : Fin (⟨1, ![T]⟩ : Shape).rank) [⟨⟨1, ![R]⟩, x0⟩, ⟨⟨1, ![R]⟩, x1⟩, ⟨⟨1, ![R]⟩, x2⟩, ⟨⟨1, ![R]⟩, x3⟩] hc (ix1 J) 0 (by simp)
    ⟨1, ![R]⟩ x0 rfl rfl 0 rfl (ix1 q) (fun b hb => by
      match b with
      | ⟨0, _⟩ => exact absurd (Fin.ext rfl) hb) (by show 0 + q.val = J.val; omega)

/-- An entry of the second piece. -/
theorem stack4_vec_apply1 (x0 x1 x2 x3 : (⟨1, ![R]⟩ : Shape).Idx → α)
    (hc : Shape.Concatenates [(⟨1, ![R]⟩ : Shape), ⟨1, ![R]⟩, ⟨1, ![R]⟩, ⟨1, ![R]⟩] ⟨1, ![T]⟩ 0)
    (J : Fin T) (q : Fin R) (hJ : J.val = R + q.val) :
    concatenate ⟨1, ![T]⟩ 0 [⟨⟨1, ![R]⟩, x0⟩, ⟨⟨1, ![R]⟩, x1⟩, ⟨⟨1, ![R]⟩, x2⟩, ⟨⟨1, ![R]⟩, x3⟩] hc (ix1 J) = x1 (ix1 q) :=
  concatenate_apply_piece (0 : Fin (⟨1, ![T]⟩ : Shape).rank) [⟨⟨1, ![R]⟩, x0⟩, ⟨⟨1, ![R]⟩, x1⟩, ⟨⟨1, ![R]⟩, x2⟩, ⟨⟨1, ![R]⟩, x3⟩] hc (ix1 J) 1 (by simp)
    ⟨1, ![R]⟩ x1 rfl rfl R (by simp) (ix1 q) (fun b hb => by
      match b with
      | ⟨0, _⟩ => exact absurd (Fin.ext rfl) hb) (by show R + q.val = J.val; omega)

/-- An entry of the third piece. -/
theorem stack4_vec_apply2 (x0 x1 x2 x3 : (⟨1, ![R]⟩ : Shape).Idx → α)
    (hc : Shape.Concatenates [(⟨1, ![R]⟩ : Shape), ⟨1, ![R]⟩, ⟨1, ![R]⟩, ⟨1, ![R]⟩] ⟨1, ![T]⟩ 0)
    (J : Fin T) (q : Fin R) (hJ : J.val = R + R + q.val) :
    concatenate ⟨1, ![T]⟩ 0 [⟨⟨1, ![R]⟩, x0⟩, ⟨⟨1, ![R]⟩, x1⟩, ⟨⟨1, ![R]⟩, x2⟩, ⟨⟨1, ![R]⟩, x3⟩] hc (ix1 J) = x2 (ix1 q) :=
  concatenate_apply_piece (0 : Fin (⟨1, ![T]⟩ : Shape).rank) [⟨⟨1, ![R]⟩, x0⟩, ⟨⟨1, ![R]⟩, x1⟩, ⟨⟨1, ![R]⟩, x2⟩, ⟨⟨1, ![R]⟩, x3⟩] hc (ix1 J) 2 (by simp)
    ⟨1, ![R]⟩ x2 rfl rfl (R + R) (by simp) (ix1 q) (fun b hb => by
      match b with
      | ⟨0, _⟩ => exact absurd (Fin.ext rfl) hb) (by show R + R + q.val = J.val; omega)

/-- An entry of the fourth piece. -/
theorem stack4_vec_apply3 (x0 x1 x2 x3 : (⟨1, ![R]⟩ : Shape).Idx → α)
    (hc : Shape.Concatenates [(⟨1, ![R]⟩ : Shape), ⟨1, ![R]⟩, ⟨1, ![R]⟩, ⟨1, ![R]⟩] ⟨1, ![T]⟩ 0)
    (J : Fin T) (q : Fin R) (hJ : J.val = R + R + R + q.val) :
    concatenate ⟨1, ![T]⟩ 0 [⟨⟨1, ![R]⟩, x0⟩, ⟨⟨1, ![R]⟩, x1⟩, ⟨⟨1, ![R]⟩, x2⟩, ⟨⟨1, ![R]⟩, x3⟩] hc (ix1 J) = x3 (ix1 q) :=
  concatenate_apply_piece (0 : Fin (⟨1, ![T]⟩ : Shape).rank) [⟨⟨1, ![R]⟩, x0⟩, ⟨⟨1, ![R]⟩, x1⟩, ⟨⟨1, ![R]⟩, x2⟩, ⟨⟨1, ![R]⟩, x3⟩] hc (ix1 J) 3 (by simp)
    ⟨1, ![R]⟩ x3 rfl rfl (R + R + R) (by simp; omega) (ix1 q) (fun b hb => by
      match b with
      | ⟨0, _⟩ => exact absurd (Fin.ext rfl) hb) (by show R + R + R + q.val = J.val; omega)

end Vecs

/-! ## A matrix product against a right operand stored one output column per row -/

section TransposedRhs
variable {M K N : ℕ}

theorem trhs_lhs0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch by simp [DotDims.transposedRhs]),
    dif_pos (show (0 : Fin (⟨2, ![M, K]⟩ : Shape).rank) ∈ (DotDims.transposedRhs M K N).lhsNonContracting by simp [DotDims.transposedRhs])]
  rfl

theorem trhs_lhs1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

theorem trhs_rhs0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch by simp [DotDims.transposedRhs]),
    dif_pos (show (0 : Fin (⟨2, ![N, K]⟩ : Shape).rank) ∈ (DotDims.transposedRhs M K N).rhsNonContracting by simp [DotDims.transposedRhs])]
  rfl

theorem trhs_rhs1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- The contraction's sum, re-indexed by the one contracted coordinate: both operands are read along their rows. -/
theorem trhs_sum {φ₁ φ₂ : FTy} (l : FVec Ideal ⟨2, ![M, K]⟩ φ₁) (r : FVec Ideal ⟨2, ![N, K]⟩ φ₂) (p : Fin M) (q : Fin N) :
    (∑ k : (DotDims.transposedRhs M K N).contr.Idx,
        l ((DotDims.transposedRhs M K N).lhsIdx (ix2 p q) k) * r ((DotDims.transposedRhs M K N).rhsIdx (ix2 p q) k))
      = ∑ k : Fin K, l (ix2 p k) * r (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact trhs_lhs0 _ _
      | ⟨1, _⟩ => exact (trhs_lhs1 _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact trhs_rhs0 _ _
      | ⟨1, _⟩ => exact (trhs_rhs1 _ _).trans hk)
  rw [el, er]

/-- A kernel's product into the zero splat, the right operand contracted on its last axis, at `(p, q)`:
    row `p` of the left against row `q` of the right. -/
theorem matmul_trhs_apply {φ₁ φ₂ : FTy} (d : DotDims ⟨2, ![M, K]⟩ ⟨2, ![N, K]⟩ ⟨2, ![M, N]⟩) (hd : d = DotDims.transposedRhs M K N)
    (prec : Option ContractPrecision) (l : FVec Ideal ⟨2, ![M, K]⟩ φ₁) (r : FVec Ideal ⟨2, ![N, K]⟩ φ₂) (p : Fin M) (q : Fin N) :
    matmul d prec l r (constant ⟨2, ![M, N]⟩ .f32 0x00000000#32) (ix2 p q) = ∑ k : Fin K, l (ix2 p k) * r (ix2 q k) := by
  subst hd
  show FloatOps.matmul (DotDims.transposedRhs M K N) prec l r (constant ⟨2, ![M, N]⟩ .f32 0x00000000#32) (ix2 p q) = _
  rw [Ideal.matmul_constant_zero_apply]
  exact trhs_sum l r p q

end TransposedRhs

end StackOps

end
-- ==== Proof.KernelTile.lean ====
/-
  What the kernel body computes on one tile, entry by entry.

  At a grid point the body holds 512 joined batch rows, four blocks of 256 weight rows, four blocks of 256 biases and
  a 512 × 256 tile of the old cell state.  Each gate of the tile is the joined row against a weight row (both read
  along the 4096 joined features, the weights never transposed) plus the bias; the new cell tile and the new hidden
  tile are the LSTM combination of those gates.
-/
import proofs.«178720_j36086315221096_1_alg».proof.Proof.Gen.KernelIdeal.Skeleton
import proofs.«178720_j36086315221096_1_alg».proof.Proof.Spec
import proofs.«178720_j36086315221096_1_alg».proof.Proof.LibStackOps

noncomputable section

open scoped BigOperators

namespace Cert.KernelIdeal.Tile

open Cert.KernelIdeal Cert.KernelIdeal.Gen Idealize.ShloMosaic Idealize.ShloMosaic.ValueIdx

/-- The body's matrix product contracts the last axis of both operands. -/
theorem dot_eq : dot_S512x4096_S256x4096_S512x256_1_1_0_0_n_n = DotDims.transposedRhs 512 4096 256 := rfl

/-- One gate of the tile before squashing, at tile row `r` and tile column `q`. -/
def gate (rows : Vec Ideal S512x4096 .bf16) (w : Vec Ideal S256x4096 .bf16) (b : Vec Ideal S256 .f32) (r : Fin 512) (q : Fin 256) : EReal :=
  (∑ k : Fin 4096, rows (ix2 r k) * w (ix2 q k)) + b (ix1 q)

/-- The body's gate — the product into the zero splat plus the bias cast to a row and broadcast down — is that sum. -/
theorem gate_apply (rows : Vec Ideal S512x4096 .bf16) (w : Vec Ideal S256x4096 .bf16) (b : Vec Ideal S256 .f32) (r : Fin 512) (q : Fin 256) :
    addf (matmul dot_S512x4096_S256x4096_S512x256_1_1_0_0_n_n none (k0_pay2 rows) (shapeCast S256x4096 w shapeCasts_S256x4096_S256x4096 : FVec Ideal S256x4096 .bf16)
          (constant S512x256 .f32 0x00000000#32))
        (broadcastTo S512x256 (shapeCast S1x256 b shapeCasts_S256_S1x256) broadcasts_S1x256_S512x256) (ix2 r q)
      = gate rows w b r q := by
  show matmul dot_S512x4096_S256x4096_S512x256_1_1_0_0_n_n none (k0_pay2 rows) (shapeCast S256x4096 w shapeCasts_S256x4096_S256x4096 : FVec Ideal S256x4096 .bf16)
          (constant S512x256 .f32 0x00000000#32) (ix2 r q)
        + broadcastTo S512x256 (shapeCast S1x256 b shapeCasts_S256_S1x256) broadcasts_S1x256_S512x256 (ix2 r q) = _
  unfold k0_pay2
  rw [shapeCast_self, shapeCast_self, StackOps.matmul_trhs_apply _ dot_eq, RowOps.bias_cast_apply]
  rfl

/-- The new cell tile: forget gate times the old cell tile plus input gate times candidate. -/
theorem cell_apply (rows : Vec Ideal S512x4096 .bf16) (wf : Vec Ideal S256x4096 .bf16) (bf : Vec Ideal S256 .f32)
    (wi : Vec Ideal S256x4096 .bf16) (bi : Vec Ideal S256 .f32) (wg : Vec Ideal S256x4096 .bf16) (bg : Vec Ideal S256 .f32)
    (c : Vec Ideal S512x256 .f32) (r : Fin 512) (q : Fin 256) :
    k0_pay4 rows wf bf wi bi wg bg c (ix2 r q)
      = Ideal.logistic (gate rows wf bf r q) * c (ix2 r q)
        + Ideal.logistic (gate rows wi bi r q) * Ideal.tanh (gate rows wg bg r q) := by
  have hf := gate_apply rows wf bf r q
  have hi := gate_apply rows wi bi r q
  have hg := gate_apply rows wg bg r q
  unfold k0_pay4
  show Ideal.logistic (_) * c (ix2 r q) + Ideal.logistic (_) * Ideal.tanh (_) = _
  rw [hf, hi, hg]

/-- The third payload, the output gate squashed. -/
theorem out_gate_apply (rows : Vec Ideal S512x4096 .bf16) (wo : Vec Ideal S256x4096 .bf16) (bo : Vec Ideal S256 .f32) (r : Fin 512) (q : Fin 256) :
    k0_pay3 rows wo bo (ix2 r q) = Ideal.logistic (gate rows wo bo r q) := by
  have ho := gate_apply rows wo bo r q
  unfold k0_pay3
  show Ideal.logistic (_) = _
  rw [ho]

/-- The new hidden tile: output gate times the squashed new cell tile. -/
theorem hidden_apply (og cn : FVec Ideal S512x256 .f32) (r : Fin 512) (q : Fin 256) :
    k0_pay1 og cn (ix2 r q) = og (ix2 r q) * Ideal.tanh (cn (ix2 r q)) := rfl

/-! ## The tile against the specification -/

section Spec
open LstmCell

variable (x hid ct : Act.Idx → EReal) (Wf : Wt.Idx → EReal) (bf : Bs.Idx → EReal) (Wi : Wt.Idx → EReal) (bi : Bs.Idx → EReal)
  (Wo : Wt.Idx → EReal) (bo : Bs.Idx → EReal) (Wg : Wt.Idx → EReal) (bg : Bs.Idx → EReal)

/-- A tile's gate is the specification's gate at the array position the tile entry sits at: when tile row `r` holds
    joined batch row `P`, weight-block row `q` holds weight row `Q` and bias-block entry `q` holds bias entry `Q`. -/
theorem gate_spec (W : Wt.Idx → EReal) (b : Bs.Idx → EReal) (rows : Vec Ideal S512x4096 .bf16) (w : Vec Ideal S256x4096 .bf16)
    (bb : Vec Ideal S256 .f32) (P : Fin 4096) (Q : Fin 2048) (r : Fin 512) (q : Fin 256)
    (hrows : ∀ k : Fin 4096, rows (ix2 r k) = joined hid x P k) (hw : ∀ k : Fin 4096, w (ix2 q k) = W (ix2 Q k))
    (hb : bb (ix1 q) = b (ix1 Q)) :
    gate rows w bb r q = LstmCell.gate hid x W b P Q := by
  unfold gate LstmCell.gate
  rw [hb]
  congr 1
  exact Finset.sum_congr rfl fun k _ => by rw [hrows k, hw k]

/-- The new cell tile is the specification's new cell state at the tile's position. -/
theorem cell_spec (rows : Vec Ideal S512x4096 .bf16) (wf : Vec Ideal S256x4096 .bf16) (bf' : Vec Ideal S256 .f32)
    (wi : Vec Ideal S256x4096 .bf16) (bi' : Vec Ideal S256 .f32) (wg : Vec Ideal S256x4096 .bf16) (bg' : Vec Ideal S256 .f32)
    (c : Vec Ideal S512x256 .f32) (P : Fin 4096) (Q : Fin 2048) (r : Fin 512) (q : Fin 256)
    (hrows : ∀ k : Fin 4096, rows (ix2 r k) = joined hid x P k)
    (hwf : ∀ k : Fin 4096, wf (ix2 q k) = Wf (ix2 Q k)) (hbf : bf' (ix1 q) = bf (ix1 Q))
    (hwi : ∀ k : Fin 4096, wi (ix2 q k) = Wi (ix2 Q k)) (hbi : bi' (ix1 q) = bi (ix1 Q))
    (hwg : ∀ k : Fin 4096, wg (ix2 q k) = Wg (ix2 Q k)) (hbg : bg' (ix1 q) = bg (ix1 Q))
    (hc : c (ix2 r q) = ct (ix2 P Q)) :
    k0_pay4 rows wf bf' wi bi' wg bg' c (ix2 r q) = cellNext x hid ct Wf bf Wi bi Wg bg (ix2 P Q) := by
  rw [cell_apply, gate_spec x hid Wf bf rows wf bf' P Q r q hrows hwf hbf, gate_spec x hid Wi bi rows wi bi' P Q r q hrows hwi hbi,
    gate_spec x hid Wg bg rows wg bg' P Q r q hrows hwg hbg, hc]
  rfl

/-- The new hidden tile is the specification's new hidden state at the tile's position. -/
theorem hidden_spec (rows : Vec Ideal S512x4096 .bf16) (wf : Vec Ideal S256x4096 .bf16) (bf' : Vec Ideal S256 .f32)
    (wi : Vec Ideal S256x4096 .bf16) (bi' : Vec Ideal S256 .f32) (wo : Vec Ideal S256x4096 .bf16) (bo' : Vec Ideal S256 .f32)
    (wg : Vec Ideal S256x4096 .bf16) (bg' : Vec Ideal S256 .f32)
    (c : Vec Ideal S512x256 .f32) (P : Fin 4096) (Q : Fin 2048) (r : Fin 512) (q : Fin 256)
    (hrows : ∀ k : Fin 4096, rows (ix2 r k) = joined hid x P k)
    (hwf : ∀ k : Fin 4096, wf (ix2 q k) = Wf (ix2 Q k)) (hbf : bf' (ix1 q) = bf (ix1 Q))
    (hwi : ∀ k : Fin 4096, wi (ix2 q k) = Wi (ix2 Q k)) (hbi : bi' (ix1 q) = bi (ix1 Q))
    (hwo : ∀ k : Fin 4096, wo (ix2 q k) = Wo (ix2 Q k)) (hbo : bo' (ix1 q) = bo (ix1 Q))
    (hwg : ∀ k : Fin 4096, wg (ix2 q k) = Wg (ix2 Q k)) (hbg : bg' (ix1 q) = bg (ix1 Q))
    (hc : c (ix2 r q) = ct (ix2 P Q)) :
    k0_pay1 (k0_pay3 rows wo bo') (k0_pay4 rows wf bf' wi bi' wg bg' c) (ix2 r q)
      = hiddenNext x hid ct Wf bf Wi bi Wo bo Wg bg (ix2 P Q) := by
  rw [hidden_apply, out_gate_apply, gate_spec x hid Wo bo rows wo bo' P Q r q hrows hwo hbo,
    cell_spec x hid ct Wf bf Wi bi Wg bg rows wf bf' wi bi' wg bg' c P Q r q hrows hwf hbf hwi hbi hwg hbg hc]
  rfl

end Spec

end Cert.KernelIdeal.Tile

end
-- ==== Proof.KernelBlocks.lean ====
/-
  From the kernel's tiles to its two result arrays.

  The grid has 8 × 8 points; point (j, i) holds batch rows 512 i … 512 i + 511 of the joined input (hidden state then
  input, joined and narrowed by the host before the call — the narrowing is the identity on the extended reals), rows
  256 j … 256 j + 255 of each weight matrix and of each bias, and tile (i, j) of the old cell state, and writes tile
  (i, j) of each result.  So what a point writes back is the tile of the specification's arrays at its position, the
  64 tiles cover each result array, and the arrays after the run are the specification's.
-/
import proofs.«178720_j36086315221096_1_alg».proof.Proof.Gen.KernelIdeal.Value
import proofs.«178720_j36086315221096_1_alg».proof.Proof.KernelTile
import Idealize.ShloMosaic.Lib.StableHlo.Run

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.Value Idealize.ShloMosaic.ValueIdx LstmCell

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-! ## The arrays the host wrote before the call -/

/-- The joined input as the call finds it: hidden state and input joined along the features, then narrowed. -/
theorem V_joined (c : Dev nD) :
    @Eq (FVec Ideal S4096x4096 .bf16) (V m c main_v1)
      (truncf .bf16 (concatenate S4096x4096 1 [⟨S4096x2048, (m ((c : Thread nD τ).loc main_arg1))⟩, ⟨S4096x2048, (m ((c : Thread nD τ).loc main_arg0))⟩]
          concatenates_S4096x2048_S4096x2048_S4096x4096_d1) bitsLt_bf16_f32) := by
  dsimp only [Gen.V, Gen.hostOps0]
  after_results

theorem V_narrowed2 (c : Dev nD) :
    @Eq (FVec Ideal S2048x4096 .bf16) (V m c main_v2) (truncf .bf16 ((m ((c : Thread nD τ).loc main_arg3)) : FVec Ideal S2048x4096 .f32) bitsLt_bf16_f32) := by
  dsimp only [Gen.V, Gen.hostOps0]
  after_results

theorem V_narrowed3 (c : Dev nD) :
    @Eq (FVec Ideal S2048x4096 .bf16) (V m c main_v3) (truncf .bf16 ((m ((c : Thread nD τ).loc main_arg5)) : FVec Ideal S2048x4096 .f32) bitsLt_bf16_f32) := by
  dsimp only [Gen.V, Gen.hostOps0]
  after_results

theorem V_narrowed4 (c : Dev nD) :
    @Eq (FVec Ideal S2048x4096 .bf16) (V m c main_v4) (truncf .bf16 ((m ((c : Thread nD τ).loc main_arg7)) : FVec Ideal S2048x4096 .f32) bitsLt_bf16_f32) := by
  dsimp only [Gen.V, Gen.hostOps0]
  after_results

theorem V_narrowed5 (c : Dev nD) :
    @Eq (FVec Ideal S2048x4096 .bf16) (V m c main_v5) (truncf .bf16 ((m ((c : Thread nD τ).loc main_arg9)) : FVec Ideal S2048x4096 .f32) bitsLt_bf16_f32) := by
  dsimp only [Gen.V, Gen.hostOps0]
  after_results

/-! ## The relations between the index maps, decided over the 64 points -/

/-- Every input window moves with the cell-state output: the joined rows and the old cell state with its row block, the
    weights and biases with its column block; both outputs move together; the block indices stay below 8. -/
theorem idx_facts : ∀ t : Fin cfg0.N,
    win0_0.index t (0 : Fin 2) = win0_11.index t (0 : Fin 2)
    ∧ win0_0.index t (1 : Fin 2) = 0
    ∧ win0_1.index t (0 : Fin 2) = win0_11.index t (1 : Fin 2)
    ∧ win0_1.index t (1 : Fin 2) = 0
    ∧ win0_2.index t (0 : Fin 2) = win0_11.index t (1 : Fin 2)
    ∧ win0_2.index t (1 : Fin 2) = 0
    ∧ win0_3.index t (0 : Fin 2) = win0_11.index t (1 : Fin 2)
    ∧ win0_3.index t (1 : Fin 2) = 0
    ∧ win0_4.index t (0 : Fin 2) = win0_11.index t (1 : Fin 2)
    ∧ win0_4.index t (1 : Fin 2) = 0
    ∧ win0_5.index t (0 : Fin 1) = win0_11.index t (1 : Fin 2)
    ∧ win0_6.index t (0 : Fin 1) = win0_11.index t (1 : Fin 2)
    ∧ win0_7.index t (0 : Fin 1) = win0_11.index t (1 : Fin 2)
    ∧ win0_8.index t (0 : Fin 1) = win0_11.index t (1 : Fin 2)
    ∧ win0_9.index t (0 : Fin 2) = win0_11.index t (0 : Fin 2)
    ∧ win0_9.index t (1 : Fin 2) = win0_11.index t (1 : Fin 2)
    ∧ win0_10.index t (0 : Fin 2) = win0_11.index t (0 : Fin 2)
    ∧ win0_10.index t (1 : Fin 2) = win0_11.index t (1 : Fin 2)
    ∧ win0_11.index t (0 : Fin 2) ≤ 7
    ∧ win0_11.index t (1 : Fin 2) ≤ 7 :=
  (by decide +kernel : ∀ t : Fin grid0.N, _)

/-- Every tile position is some point's. -/
theorem idx_onto : ∀ (q0 q1 : Fin 8), ∃ t : Fin cfg0.N, win0_11.index t = ![q0.val, q1.val] :=
  (by decide +kernel : ∀ (q0 q1 : Fin 8), ∃ t : Fin grid0.N, win0_11.index t = ![q0.val, q1.val])

/-! ## The input windows' blocks, read at an entry -/

/-- Tile row `r` of the joined-input block is joined batch row `P`, `r` rows into the point's row block. -/
theorem rows_apply (c : Dev nD) (t : Fin cfg0.N) (r : Fin 512) (k : Fin 4096) (P : Fin 4096)
    (hP : P.val = win0_0.index t (0 : Fin 2) * 512 + r.val) (h1 : win0_0.index t (1 : Fin 2) = 0) :
    (iblk m c 0 t : Vec Ideal S512x4096 .bf16) (ix2 r k) = joined (m ((c : Thread nD τ).loc main_arg1)) (m ((c : Thread nD τ).loc main_arg0)) P k := by
  unfold iblk
  show V m c main_v1 (((cfg0.win 0).blk t).view.emb (ix2 r k)) = _
  have e : ((cfg0.win 0).blk t).view.emb (ix2 r k) = ix2 P k := funext fun a => Fin.ext (by
    match a with
    | ⟨0, _⟩ => show win0_0.index t (0 : Fin 2) * 512 + 1 * r.val = P.val; omega
    | ⟨1, _⟩ => show win0_0.index t (1 : Fin 2) * 4096 + 1 * k.val = k.val; omega)
  rw [e, V_joined]
  unfold joined
  exact RowOps.cat2_apply _ _ concatenates_S4096x2048_S4096x2048_S4096x4096_d1 rfl P k

/-- Row `q` of the forget-gate weight block is weight row `Q`. -/
theorem wblk1_apply (c : Dev nD) (t : Fin cfg0.N) (q : Fin 256) (k : Fin 4096) (Q : Fin 2048)
    (hQ : Q.val = win0_1.index t (0 : Fin 2) * 256 + q.val) (h1 : win0_1.index t (1 : Fin 2) = 0) :
    (iblk m c 1 t : Vec Ideal S256x4096 .bf16) (ix2 q k) = (m ((c : Thread nD τ).loc main_arg3)) (ix2 Q k) := by
  unfold iblk
  rw [View.read_apply]
  show V m c main_v2 (((cfg0.win 1).blk t).view.emb (ix2 q k)) = _
  have e : ((cfg0.win 1).blk t).view.emb (ix2 q k) = ix2 Q k := funext fun a => Fin.ext (by
    match a with
    | ⟨0, _⟩ => show win0_1.index t (0 : Fin 2) * 256 + 1 * q.val = Q.val; omega
    | ⟨1, _⟩ => show win0_1.index t (1 : Fin 2) * 4096 + 1 * k.val = k.val; omega)
  rw [e, V_narrowed2]
  rfl

/-- Row `q` of the input-gate weight block is weight row `Q`. -/
theorem wblk2_apply (c : Dev nD) (t : Fin cfg0.N) (q : Fin 256) (k : Fin 4096) (Q : Fin 2048)
    (hQ : Q.val = win0_2.index t (0 : Fin 2) * 256 + q.val) (h1 : win0_2.index t (1 : Fin 2) = 0) :
    (iblk m c 2 t : Vec Ideal S256x4096 .bf16) (ix2 q k) = (m ((c : Thread nD τ).loc main_arg5)) (ix2 Q k) := by
  unfold iblk
  rw [View.read_apply]
  show V m c main_v3 (((cfg0.win 2).blk t).view.emb (ix2 q k)) = _
  have e : ((cfg0.win 2).blk t).view.emb (ix2 q k) = ix2 Q k := funext fun a => Fin.ext (by
    match a with
    | ⟨0, _⟩ => show win0_2.index t (0 : Fin 2) * 256 + 1 * q.val = Q.val; omega
    | ⟨1, _⟩ => show win0_2.index t (1 : Fin 2) * 4096 + 1 * k.val = k.val; omega)
  rw [e, V_narrowed3]
  rfl

/-- Row `q` of the output-gate weight block is weight row `Q`. -/
theorem wblk3_apply (c : Dev nD) (t : Fin cfg0.N) (q : Fin 256) (k : Fin 4096) (Q : Fin 2048)
    (hQ : Q.val = win0_3.index t (0 : Fin 2) * 256 + q.val) (h1 : win0_3.index t (1 : Fin 2) = 0) :
    (iblk m c 3 t : Vec Ideal S256x4096 .bf16) (ix2 q k) = (m ((c : Thread nD τ).loc main_arg7)) (ix2 Q k) := by
  unfold iblk
  rw [View.read_apply]
  show V m c main_v4 (((cfg0.win 3).blk t).view.emb (ix2 q k)) = _
  have e : ((cfg0.win 3).blk t).view.emb (ix2 q k) = ix2 Q k := funext fun a => Fin.ext (by
    match a with
    | ⟨0, _⟩ => show win0_3.index t (0 : Fin 2) * 256 + 1 * q.val = Q.val; omega
    | ⟨1, _⟩ => show win0_3.index t (1 : Fin 2) * 4096 + 1 * k.val = k.val; omega)
  rw [e, V_narrowed4]
  rfl

/-- Row `q` of the candidate weight block is weight row `Q`. -/
theorem wblk4_apply (c : Dev nD) (t : Fin cfg0.N) (q : Fin 256) (k : Fin 4096) (Q : Fin 2048)
    (hQ : Q.val = win0_4.index t (0 : Fin 2) * 256 + q.val) (h1 : win0_4.index t (1 : Fin 2) = 0) :
    (iblk m c 4 t : Vec Ideal S256x4096 .bf16) (ix2 q k) = (m ((c : Thread nD τ).loc main_arg9)) (ix2 Q k) := by
  unfold iblk
  rw [View.read_apply]
  show V m c main_v5 (((cfg0.win 4).blk t).view.emb (ix2 q k)) = _
  have e : ((cfg0.win 4).blk t).view.emb (ix2 q k) = ix2 Q k := funext fun a => Fin.ext (by
    match a with
    | ⟨0, _⟩ => show win0_4.index t (0 : Fin 2) * 256 + 1 * q.val = Q.val; omega
    | ⟨1, _⟩ => show win0_4.index t (1 : Fin 2) * 4096 + 1 * k.val = k.val; omega)
  rw [e, V_narrowed5]
  rfl

/-- Entry `q` of the forget-gate bias block is bias entry `Q`. -/
theorem bblk5_apply (c : Dev nD) (t : Fin cfg0.N) (q : Fin 256) (Q : Fin 2048)
    (hQ : Q.val = win0_5.index t (0 : Fin 1) * 256 + q.val) :
    (iblk m c 5 t : Vec Ideal S256 .f32) (ix1 q) = (m ((c : Thread nD τ).loc main_arg4)) (ix1 Q) := by
  unfold iblk
  rw [View.read_apply]
  show V m c main_arg4 (((cfg0.win 5).blk t).view.emb (ix1 q)) = _
  have e : ((cfg0.win 5).blk t).view.emb (ix1 q) = ix1 Q := funext fun a => Fin.ext (by
    match a with
    | ⟨0, _⟩ => show win0_5.index t (0 : Fin 1) * 256 + 1 * q.val = Q.val; omega)
  rw [e, V_main_arg4]

/-- Entry `q` of the input-gate bias block. -/
theorem bblk6_apply (c : Dev nD) (t : Fin cfg0.N) (q : Fin 256) (Q : Fin 2048)
    (hQ : Q.val = win0_6.index t (0 : Fin 1) * 256 + q.val) :
    (iblk m c 6 t : Vec Ideal S256 .f32) (ix1 q) = (m ((c : Thread nD τ).loc main_arg6)) (ix1 Q) := by
  unfold iblk
  rw [View.read_apply]
  show V m c main_arg6 (((cfg0.win 6).blk t).view.emb (ix1 q)) = _
  have e : ((cfg0.win 6).blk t).view.emb (ix1 q) = ix1 Q := funext fun a => Fin.ext (by
    match a with
    | ⟨0, _⟩ => show win0_6.index t (0 : Fin 1) * 256 + 1 * q.val = Q.val; omega)
  rw [e, V_main_arg6]

/-- Entry `q` of the output-gate bias block. -/
theorem bblk7_apply (c : Dev nD) (t : Fin cfg0.N) (q : Fin 256) (Q : Fin 2048)
    (hQ : Q.val = win0_7.index t (0 : Fin 1) * 256 + q.val) :
    (iblk m c 7 t : Vec Ideal S256 .f32) (ix1 q) = (m ((c : Thread nD τ).loc main_arg8)) (ix1 Q) := by
  unfold iblk
  rw [View.read_apply]
  show V m c main_arg8 (((cfg0.win 7).blk t).view.emb (ix1 q)) = _
  have e : ((cfg0.win 7).blk t).view.emb (ix1 q) = ix1 Q := funext fun a => Fin.ext (by
    match a with
    | ⟨0, _⟩ => show win0_7.index t (0 : Fin 1) * 256 + 1 * q.val = Q.val; omega)
  rw [e, V_main_arg8]

/-- Entry `q` of the candidate bias block. -/
theorem bblk8_apply (c : Dev nD) (t : Fin cfg0.N) (q : Fin 256) (Q : Fin 2048)
    (hQ : Q.val = win0_8.index t (0 : Fin 1) * 256 + q.val) :
    (iblk m c 8 t : Vec Ideal S256 .f32) (ix1 q) = (m ((c : Thread nD τ).loc main_arg10)) (ix1 Q) := by
  unfold iblk
  rw [View.read_apply]
  show V m c main_arg10 (((cfg0.win 8).blk t).view.emb (ix1 q)) = _
  have e : ((cfg0.win 8).blk t).view.emb (ix1 q) = ix1 Q := funext fun a => Fin.ext (by
    match a with
    | ⟨0, _⟩ => show win0_8.index t (0 : Fin 1) * 256 + 1 * q.val = Q.val; omega)
  rw [e, V_main_arg10]

/-- Entry `(r, q)` of the old cell state's tile is its entry `(P, Q)`. -/
theorem cblk_apply (c : Dev nD) (t : Fin cfg0.N) (r : Fin 512) (q : Fin 256) (P : Fin 4096) (Q : Fin 2048)
    (hP : P.val = win0_9.index t (0 : Fin 2) * 512 + r.val) (hQ : Q.val = win0_9.index t (1 : Fin 2) * 256 + q.val) :
    (iblk m c 9 t : Vec Ideal S512x256 .f32) (ix2 r q) = (m ((c : Thread nD τ).loc main_arg2)) (ix2 P Q) := by
  unfold iblk
  show V m c main_arg2 (((cfg0.win 9).blk t).view.emb (ix2 r q)) = _
  have e : ((cfg0.win 9).blk t).view.emb (ix2 r q) = ix2 P Q := funext fun a => Fin.ext (by
    match a with
    | ⟨0, _⟩ => show win0_9.index t (0 : Fin 2) * 512 + 1 * r.val = P.val; omega
    | ⟨1, _⟩ => show win0_9.index t (1 : Fin 2) * 256 + 1 * q.val = Q.val; omega)
  rw [e, V_main_arg2]

/-! ## What a point writes back -/

/-- Point `t` writes back the tile of the specification's new cell state at its position. -/
theorem cell_flushed (c : Dev nD) (t : Fin cfg0.N) :
    (dats m 0 c).flushed 11 t = ((cfg0.win 11).blk t).view.read (Elt Ideal) (cellNext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10))) := by
  rw [Value.flushed11]
  unfold out0_11
  rw [View.canon_unit_zero hz2]
  simp only [View.ld_unit_zero (S := S512x4096) hz2, View.ld_unit_zero (S := S256x4096) hz2, View.ld_unit_zero (S := S256) hz1,
    View.ld_unit_zero (S := S512x256) hz2]
  obtain ⟨r0, z0, f1, z1, f2, z2, f3, z3, f4, z4, b5, b6, b7, b8, c0, c1, o0, o1, u0, u1⟩ := idx_facts t
  funext y
  obtain ⟨r, q, rfl⟩ : ∃ (r : Fin 512) (q : Fin 256), y = ix2 r q := ⟨y 0, y 1, eq_ix2 y⟩
  have hr := r.isLt
  have hq := q.isLt
  have hP : win0_11.index t (0 : Fin 2) * 512 + r.val < 4096 := by omega
  have hQ : win0_11.index t (1 : Fin 2) * 256 + q.val < 2048 := by omega
  have hemb : ((cfg0.win 11).blk t).view.emb (ix2 r q) = ix2 (⟨_, hP⟩ : Fin 4096) (⟨_, hQ⟩ : Fin 2048) := funext fun a => Fin.ext (by
    match a with
    | ⟨0, _⟩ => show win0_11.index t (0 : Fin 2) * 512 + 1 * r.val = win0_11.index t (0 : Fin 2) * 512 + r.val; omega
    | ⟨1, _⟩ => show win0_11.index t (1 : Fin 2) * 256 + 1 * q.val = win0_11.index t (1 : Fin 2) * 256 + q.val; omega)
  show k0_pay4 (iblk m c 0 t) (iblk m c 1 t) (iblk m c 5 t) (iblk m c 2 t) (iblk m c 6 t) (iblk m c 4 t) (iblk m c 8 t) (iblk m c 9 t) (ix2 r q)
      = (cellNext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10))) (((cfg0.win 11).blk t).view.emb (ix2 r q))
  rw [hemb]
  exact Tile.cell_spec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10))
    (iblk m c 0 t) (iblk m c 1 t) (iblk m c 5 t) (iblk m c 2 t) (iblk m c 6 t) (iblk m c 4 t) (iblk m c 8 t) (iblk m c 9 t)
    (⟨_, hP⟩ : Fin 4096) (⟨_, hQ⟩ : Fin 2048) r q
    (fun k => rows_apply m c t r k _ (by show win0_11.index t (0 : Fin 2) * 512 + r.val = _; omega) z0) (fun k => wblk1_apply m c t q k _ (by show win0_11.index t (1 : Fin 2) * 256 + q.val = _; omega) z1) (bblk5_apply m c t q _ (by show win0_11.index t (1 : Fin 2) * 256 + q.val = _; omega)) (fun k => wblk2_apply m c t q k _ (by show win0_11.index t (1 : Fin 2) * 256 + q.val = _; omega) z2) (bblk6_apply m c t q _ (by show win0_11.index t (1 : Fin 2) * 256 + q.val = _; omega)) (fun k => wblk4_apply m c t q k _ (by show win0_11.index t (1 : Fin 2) * 256 + q.val = _; omega) z4) (bblk8_apply m c t q _ (by show win0_11.index t (1 : Fin 2) * 256 + q.val = _; omega)) (cblk_apply m c t r q _ _ (by show win0_11.index t (0 : Fin 2) * 512 + r.val = _; omega) (by show win0_11.index t (1 : Fin 2) * 256 + q.val = _; omega))

/-- Point `t` writes back the tile of the specification's new hidden state at its position. -/
theorem hidden_flushed (c : Dev nD) (t : Fin cfg0.N) :
    (dats m 0 c).flushed 10 t = ((cfg0.win 10).blk t).view.read (Elt Ideal) (hiddenNext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  rw [Value.flushed10]
  unfold out0_10
  rw [View.canon_unit_zero hz2]
  simp only [View.ld_unit_zero (S := S512x4096) hz2, View.ld_unit_zero (S := S256x4096) hz2, View.ld_unit_zero (S := S256) hz1,
    View.ld_unit_zero (S := S512x256) hz2]
  obtain ⟨r0, z0, f1, z1, f2, z2, f3, z3, f4, z4, b5, b6, b7, b8, c0, c1, o0, o1, u0, u1⟩ := idx_facts t
  funext y
  obtain ⟨r, q, rfl⟩ : ∃ (r : Fin 512) (q : Fin 256), y = ix2 r q := ⟨y 0, y 1, eq_ix2 y⟩
  have hr := r.isLt
  have hq := q.isLt
  have hP : win0_11.index t (0 : Fin 2) * 512 + r.val < 4096 := by omega
  have hQ : win0_11.index t (1 : Fin 2) * 256 + q.val < 2048 := by omega
  have hemb : ((cfg0.win 10).blk t).view.emb (ix2 r q) = ix2 (⟨_, hP⟩ : Fin 4096) (⟨_, hQ⟩ : Fin 2048) := funext fun a => Fin.ext (by
    match a with
    | ⟨0, _⟩ => show win0_10.index t (0 : Fin 2) * 512 + 1 * r.val = win0_11.index t (0 : Fin 2) * 512 + r.val; omega
    | ⟨1, _⟩ => show win0_10.index t (1 : Fin 2) * 256 + 1 * q.val = win0_11.index t (1 : Fin 2) * 256 + q.val; omega)
  show k0_pay1 (k0_pay3 (iblk m c 0 t) (iblk m c 3 t) (iblk m c 7 t)) (k0_pay4 (iblk m c 0 t) (iblk m c 1 t) (iblk m c 5 t) (iblk m c 2 t) (iblk m c 6 t) (iblk m c 4 t) (iblk m c 8 t) (iblk m c 9 t)) (ix2 r q)
      = (hiddenNext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (((cfg0.win 10).blk t).view.emb (ix2 r q))
  rw [hemb]
  exact Tile.hidden_spec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
    (iblk m c 0 t) (iblk m c 1 t) (iblk m c 5 t) (iblk m c 2 t) (iblk m c 6 t) (iblk m c 3 t) (iblk m c 7 t) (iblk m c 4 t) (iblk m c 8 t) (iblk m c 9 t)
    (⟨_, hP⟩ : Fin 4096) (⟨_, hQ⟩ : Fin 2048) r q
    (fun k => rows_apply m c t r k _ (by show win0_11.index t (0 : Fin 2) * 512 + r.val = _; omega) z0) (fun k => wblk1_apply m c t q k _ (by show win0_11.index t (1 : Fin 2) * 256 + q.val = _; omega) z1) (bblk5_apply m c t q _ (by show win0_11.index t (1 : Fin 2) * 256 + q.val = _; omega)) (fun k => wblk2_apply m c t q k _ (by show win0_11.index t (1 : Fin 2) * 256 + q.val = _; omega) z2) (bblk6_apply m c t q _ (by show win0_11.index t (1 : Fin 2) * 256 + q.val = _; omega)) (fun k => wblk3_apply m c t q k _ (by show win0_11.index t (1 : Fin 2) * 256 + q.val = _; omega) z3) (bblk7_apply m c t q _ (by show win0_11.index t (1 : Fin 2) * 256 + q.val = _; omega)) (fun k => wblk4_apply m c t q k _ (by show win0_11.index t (1 : Fin 2) * 256 + q.val = _; omega) z4) (bblk8_apply m c t q _ (by show win0_11.index t (1 : Fin 2) * 256 + q.val = _; omega)) (cblk_apply m c t r q _ _ (by show win0_11.index t (0 : Fin 2) * 512 + r.val = _; omega) (by show win0_11.index t (1 : Fin 2) * 256 + q.val = _; omega))

/-! ## The arrays after the run -/

/-- The 64 tiles cover the array, so the cell-state result ends holding the specification's new cell state. -/
theorem cell_final (c : Dev nD) : (dats m 0 c).arrAt 11 cfg0.N = (cellNext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10))) :=
  (dats m 0 c).arrAt_eq_of_cover 11 (cellNext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10))) (fun t _ => cell_flushed m c t) fun i => by
    have h0 : (i 0).val < 4096 := (i 0).isLt
    have h1 : (i 1).val < 2048 := (i 1).isLt
    obtain ⟨t, ht⟩ := idx_onto ⟨(i 0).val / 512, by omega⟩ ⟨(i 1).val / 256, by omega⟩
    obtain ⟨r0, z0, f1, z1, f2, z2, f3, z3, f4, z4, b5, b6, b7, b8, c0, c1, o0, o1, u0, u1⟩ := idx_facts t
    have q0 : win0_11.index t (0 : Fin 2) = (i 0).val / 512 := congrFun ht 0
    have q1 : win0_11.index t (1 : Fin 2) = (i 1).val / 256 := congrFun ht 1
    refine ⟨t, flush0_11 t, ?_⟩
    show i ∈ ((View.whole main_v6_1).slice (win0_11.rect t)).set
    rw [View.set_slice_whole, Rect.mem_set_unit]
    intro a
    match a with
    | ⟨0, _⟩ => show win0_11.index t (0 : Fin 2) * 512 ≤ (i 0).val ∧ (i 0).val < win0_11.index t (0 : Fin 2) * 512 + 512; omega
    | ⟨1, _⟩ => show win0_11.index t (1 : Fin 2) * 256 ≤ (i 1).val ∧ (i 1).val < win0_11.index t (1 : Fin 2) * 256 + 256; omega

/-- Likewise the hidden-state result. -/
theorem hidden_final (c : Dev nD) : (dats m 0 c).arrAt 10 cfg0.N = (hiddenNext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) :=
  (dats m 0 c).arrAt_eq_of_cover 10 (hiddenNext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (fun t _ => hidden_flushed m c t) fun i => by
    have h0 : (i 0).val < 4096 := (i 0).isLt
    have h1 : (i 1).val < 2048 := (i 1).isLt
    obtain ⟨t, ht⟩ := idx_onto ⟨(i 0).val / 512, by omega⟩ ⟨(i 1).val / 256, by omega⟩
    obtain ⟨r0, z0, f1, z1, f2, z2, f3, z3, f4, z4, b5, b6, b7, b8, c0, c1, o0, o1, u0, u1⟩ := idx_facts t
    have q0 : win0_11.index t (0 : Fin 2) = (i 0).val / 512 := congrFun ht 0
    have q1 : win0_11.index t (1 : Fin 2) = (i 1).val / 256 := congrFun ht 1
    refine ⟨t, flush0_10 t, ?_⟩
    show i ∈ ((View.whole main_v6_0).slice (win0_10.rect t)).set
    rw [View.set_slice_whole, Rect.mem_set_unit]
    intro a
    match a with
    | ⟨0, _⟩ => show win0_10.index t (0 : Fin 2) * 512 ≤ (i 0).val ∧ (i 0).val < win0_10.index t (0 : Fin 2) * 512 + 512; omega
    | ⟨1, _⟩ => show win0_10.index t (1 : Fin 2) * 256 ≤ (i 1).val ∧ (i 1).val < win0_10.index t (1 : Fin 2) * 256 + 256; omega

/-- The run, read: both result arrays at the specification's, the arguments unchanged. -/
theorem run : θ_run defs (onTc (τ := τ) (main (F := Ideal))) ⟨m, fun _ => 0, ρ⟩ fun r => ∀ c : Dev nD,
      r.2.mem ((c : Thread nD τ).loc main_v6_0) = (hiddenNext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))
      ∧ r.2.mem ((c : Thread nD τ).loc main_v6_1) = (cellNext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (hidden_final m c), (h c).2.1.trans (cell_final m c), (h c).2.2⟩)
    (Value.run_blocks m ρ)

end Cert.KernelIdeal.Blocks

end
-- ==== Proof.RefCell.lean ====
/-
  The reference computes the LSTM step of the specification.

  The reference joins hidden state and input along the features, stacks the four weight matrices into one tall matrix
  and the four biases into one long vector, takes ONE product of the joined rows with the transposed stack, adds the
  stacked bias, and slices the four gates out of the result's columns.  Column `g · 2048 + q` of that result is the
  joined row against row `q` of the g-th weight matrix, plus entry `q` of the g-th bias: the gate of the
  specification.  The logistic function arrives spelt out as one over one plus the exponential of the negation.
-/
import proofs.«178720_j36086315221096_1_alg».proof.Proof.Gen.ReferenceIdeal.Read
import proofs.«178720_j36086315221096_1_alg».proof.Proof.Spec
import proofs.«178720_j36086315221096_1_alg».proof.Proof.LibStackOps

noncomputable section

open scoped BigOperators

namespace Cert.ReferenceIdeal.Cell

open Cert.ReferenceIdeal Cert.ReferenceIdeal.Gen Cert.ReferenceIdeal.Read Idealize.ShloMosaic Idealize.ShloMosaic.ValueIdx LstmCell

variable (x0 x1 x2 : FVec Ideal S4096x2048 .f32) (x3 : FVec Ideal S2048x4096 .f32) (x4 : FVec Ideal S2048 .f32)
  (x5 : FVec Ideal S2048x4096 .f32) (x6 : FVec Ideal S2048 .f32) (x7 : FVec Ideal S2048x4096 .f32) (x8 : FVec Ideal S2048 .f32)
  (x9 : FVec Ideal S2048x4096 .f32) (x10 : FVec Ideal S2048 .f32)

/-- One over one plus the exponential of the negation, the ones spelt as the word of 1.0, is the logistic function. -/
theorem host_logistic (z : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf z)))
      = Ideal.logistic z := by
  show FloatOps.hostDivf (Ideal.ofBits .f32 0x3F800000#32)
      (FloatOps.addf (Ideal.ofBits .f32 0x3F800000#32) (FloatOps.hostUnary .exp (FloatOps.hostNegf z))) = _
  rw [Ideal.ofBits_one_f32]
  rfl

/-- The joined input at `(p, k)`: the hidden state's row, then the input's. -/
theorem joined_apply (p k : Fin 4096) : val_main_v0 (F := Ideal) x0 x1 (ix2 p k) = joined x1 x0 p k := by
  unfold val_main_v0 joined
  exact RowOps.cat2_apply x1 x0 concatenates_S4096x2048_S4096x2048_S4096x4096_d1 rfl p k

/-- The stacked gates at batch row `p` and a stacked column that is column `q` of one piece (`hW`, `hb`: what the
    stacked weights and the stacked bias hold there): that piece's gate. -/
theorem gates_apply (W : FVec Ideal S2048x4096 .f32) (b : FVec Ideal S2048 .f32) (i : S4096x8192.Idx) (p : Fin 4096) (q : Fin 2048)
    (h0 : (i 0).val = p.val)
    (hW : ∀ k : Fin 4096, val_main_v1 (F := Ideal) x3 x5 x7 x9 (ix2 (⟨(i 1).val, (i 1).isLt⟩ : Fin 8192) k) = W (ix2 q k))
    (hb : val_main_v2 (F := Ideal) x4 x6 x8 x10 (ix1 (⟨(i 1).val, (i 1).isLt⟩ : Fin 8192)) = b (ix1 q)) :
    val_main_v7 (F := Ideal) x0 x1 x3 x4 x5 x6 x7 x8 x9 x10 i = gate x1 x0 W b p q := by
  rw [val_main_v7_apply, val_main_v4_apply, val_main_v6_apply, val_main_v5_apply]
  unfold gate
  show (∑ k : Fin 4096, _) + _ = (∑ k : Fin 4096, _) + _
  have e3 : idx_main_v5 (idx_main_v6 i) = ix1 (⟨(i 1).val, (i 1).isLt⟩ : Fin 8192) := funext fun a => Fin.ext (by
    match a with
    | ⟨0, _⟩ => rfl)
  rw [e3, hb]
  congr 1
  refine Finset.sum_congr rfl fun k _ => ?_
  have e1 : lidx_main_v4 i k = ix2 p k := funext fun a => Fin.ext (by
    match a with
    | ⟨0, _⟩ => exact h0
    | ⟨1, _⟩ => rfl)
  have e2 : idx_main_v3 (ridx_main_v4 i k) = ix2 (⟨(i 1).val, (i 1).isLt⟩ : Fin 8192) k := funext fun a => Fin.ext (by
    match a with
    | ⟨0, _⟩ => rfl
    | ⟨1, _⟩ => rfl)
  rw [val_main_v3_apply, e1, e2, joined_apply, hW]

/-- The forget gate squashed: the logistic function of the first slice of the stacked gates. -/
theorem forget_apply (i : S4096x2048.Idx) :
    val_main_v14 (F := Ideal) x0 x1 x3 x4 x5 x6 x7 x8 x9 x10 i = Ideal.logistic (val_main_v7 (F := Ideal) x0 x1 x3 x4 x5 x6 x7 x8 x9 x10 (idx_main_v8 i)) := by
  rw [val_main_v14_apply, val_main_v13_apply, val_main_cst_0_apply, val_main_v12_apply, val_main_v11_apply, val_main_cst_apply,
    val_main_v10_apply, val_main_v9_apply, val_main_v8_apply]
  exact host_logistic _

/-- The input gate squashed: the second slice. -/
theorem input_apply (i : S4096x2048.Idx) :
    val_main_v21 (F := Ideal) x0 x1 x3 x4 x5 x6 x7 x8 x9 x10 i = Ideal.logistic (val_main_v7 (F := Ideal) x0 x1 x3 x4 x5 x6 x7 x8 x9 x10 (idx_main_v15 i)) := by
  rw [val_main_v21_apply, val_main_v20_apply, val_main_cst_2_apply, val_main_v19_apply, val_main_v18_apply, val_main_cst_1_apply,
    val_main_v17_apply, val_main_v16_apply, val_main_v15_apply]
  exact host_logistic _

/-- The output gate squashed: the third slice. -/
theorem output_apply (i : S4096x2048.Idx) :
    val_main_v28 (F := Ideal) x0 x1 x3 x4 x5 x6 x7 x8 x9 x10 i = Ideal.logistic (val_main_v7 (F := Ideal) x0 x1 x3 x4 x5 x6 x7 x8 x9 x10 (idx_main_v22 i)) := by
  rw [val_main_v28_apply, val_main_v27_apply, val_main_cst_4_apply, val_main_v26_apply, val_main_v25_apply, val_main_cst_3_apply,
    val_main_v24_apply, val_main_v23_apply, val_main_v22_apply]
  exact host_logistic _

/-- The candidate: the hyperbolic tangent of the fourth slice. -/
theorem cand_apply (i : S4096x2048.Idx) :
    val_main_v30 (F := Ideal) x0 x1 x3 x4 x5 x6 x7 x8 x9 x10 i = Ideal.tanh (val_main_v7 (F := Ideal) x0 x1 x3 x4 x5 x6 x7 x8 x9 x10 (idx_main_v29 i)) := by
  rw [val_main_v30_apply, val_main_v29_apply]
  rfl

/-- The reference's new cell state is the specification's. -/
theorem cell_eq : val_main_v33 (F := Ideal) x0 x1 x2 x3 x4 x5 x6 x7 x8 x9 x10 = cellNext x0 x1 x2 x3 x4 x5 x6 x9 x10 := by
  funext i
  rw [val_main_v33_apply, val_main_v31_apply, val_main_v32_apply, forget_apply, input_apply, cand_apply]
  rw [(gates_apply x0 x1 x3 x4 x5 x6 x7 x8 x9 x10 x3 x4 (idx_main_v8 i) (i 0) (i 1) rfl
      (fun k => StackOps.stack4_rows_apply0 x3 x5 x7 x9 concatenates_S2048x4096_S2048x4096_S2048x4096_S2048x4096_S8192x4096_d0 _ (i 1) k rfl)
      (StackOps.stack4_vec_apply0 x4 x6 x8 x10 concatenates_S2048_S2048_S2048_S2048_S8192_d0 _ (i 1) rfl)),
    (gates_apply x0 x1 x3 x4 x5 x6 x7 x8 x9 x10 x5 x6 (idx_main_v15 i) (i 0) (i 1) rfl
      (fun k => StackOps.stack4_rows_apply1 x3 x5 x7 x9 concatenates_S2048x4096_S2048x4096_S2048x4096_S2048x4096_S8192x4096_d0 _ (i 1) k rfl)
      (StackOps.stack4_vec_apply1 x4 x6 x8 x10 concatenates_S2048_S2048_S2048_S2048_S8192_d0 _ (i 1) rfl)),
    (gates_apply x0 x1 x3 x4 x5 x6 x7 x8 x9 x10 x9 x10 (idx_main_v29 i) (i 0) (i 1) rfl
      (fun k => StackOps.stack4_rows_apply3 x3 x5 x7 x9 concatenates_S2048x4096_S2048x4096_S2048x4096_S2048x4096_S8192x4096_d0 _ (i 1) k rfl)
      (StackOps.stack4_vec_apply3 x4 x6 x8 x10 concatenates_S2048_S2048_S2048_S2048_S8192_d0 _ (i 1) rfl))]
  rfl

/-- The reference's new hidden state is the specification's. -/
theorem hidden_eq : val_main_v35 (F := Ideal) x0 x1 x2 x3 x4 x5 x6 x7 x8 x9 x10 = hiddenNext x0 x1 x2 x3 x4 x5 x6 x7 x8 x9 x10 := by
  funext i
  rw [val_main_v35_apply, val_main_v34_apply, output_apply, cell_eq]
  rw [(gates_apply x0 x1 x3 x4 x5 x6 x7 x8 x9 x10 x7 x8 (idx_main_v22 i) (i 0) (i 1) rfl
      (fun k => StackOps.stack4_rows_apply2 x3 x5 x7 x9 concatenates_S2048x4096_S2048x4096_S2048x4096_S2048x4096_S8192x4096_d0 _ (i 1) k rfl)
      (StackOps.stack4_vec_apply2 x4 x6 x8 x10 concatenates_S2048_S2048_S2048_S2048_S8192_d0 _ (i 1) rfl))]
  rfl

end Cert.ReferenceIdeal.Cell

end
-- ==== Proof.lean ====
/-
  One step of an LSTM cell as a tiled kernel, against the textbook step.

  Both programs compute, for every batch row `p` and feature `j`,

    gate_g(p, j) = Σ_k [hidden | x](p, k) · W_g(j, k) + b_g(j)        (g = forget, input, output, candidate),
    c'(p, j) = σ(gate_f) · c(p, j) + σ(gate_i) · tanh(gate_cand),       h'(p, j) = σ(gate_o) · tanh(c'(p, j)).

  The kernel walks an 8 × 8 grid of 512 × 256 tiles and takes, per tile, four products of 512 joined rows against 256
  weight rows, both operands read along the 4096 joined features; the reference stacks the four weight matrices and the
  four biases, takes one product with the transposed stack and slices the gates out of its columns.  On the extended
  reals the two sums have the same terms in the same order, the narrowing of the matmul operands is the identity, and
  the logistic function written as one operation and written as 1 / (1 + exp(−z)) is one function: nothing beyond
  re-indexing joins the two sides, so the finiteness of the inputs is never used.

  The specification is Proof/Spec.lean; the kernel's tile and arrays are Proof/KernelTile.lean and Proof/KernelBlocks.lean;
  the reference's arrays are Proof/RefCell.lean.  The frames of the two kernels are the generated ones; the reference's
  frame is its generated run with the results dropped; the idealization rewrote nothing, so `preserves` is trivial.
-/
import proofs.«178720_j36086315221096_1_alg».proof.Defs
import proofs.«178720_j36086315221096_1_alg».proof.Proof.Gen.Kernel
import proofs.«178720_j36086315221096_1_alg».proof.Proof.Gen.Kernel.Skeleton
import proofs.«178720_j36086315221096_1_alg».proof.Proof.Gen.Kernel.Launch
import proofs.«178720_j36086315221096_1_alg».proof.Proof.Gen.Kernel.Points
import proofs.«178720_j36086315221096_1_alg».proof.Proof.Gen.Kernel.Frame
import proofs.«178720_j36086315221096_1_alg».proof.Proof.Gen.KernelIdeal
import proofs.«178720_j36086315221096_1_alg».proof.Proof.Gen.KernelIdeal.Skeleton
import proofs.«178720_j36086315221096_1_alg».proof.Proof.Gen.KernelIdeal.Launch
import proofs.«178720_j36086315221096_1_alg».proof.Proof.Gen.KernelIdeal.Points
import proofs.«178720_j36086315221096_1_alg».proof.Proof.Gen.KernelIdeal.Frame
import proofs.«178720_j36086315221096_1_alg».proof.Proof.Gen.ReferenceIdeal
import proofs.«178720_j36086315221096_1_alg».proof.Proof.Gen.Pre_finite_inputs
import proofs.«178720_j36086315221096_1_alg».proof.Proof.Gen.KernelIdeal.Value
import proofs.«178720_j36086315221096_1_alg».proof.Proof.Gen.ReferenceIdeal.Run
import proofs.«178720_j36086315221096_1_alg».proof.Proof.Gen.ReferenceIdeal.Read
import proofs.«178720_j36086315221096_1_alg».proof.Proof.KernelBlocks
import proofs.«178720_j36086315221096_1_alg».proof.Proof.RefCell
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's run, its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the specification's new hidden state and new cell state of the (agreeing) arguments. -/
theorem algebraic : Cert.algebraic_KernelIdeal_ReferenceIdeal := by
  intro m ρ m' ρ' _ hagree
  refine ⟨_, _, Cert.KernelIdeal.Blocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10⟩ := hagree c
    rw [Cert.ReferenceIdeal.Read.val_main_v35_eq, Cert.ReferenceIdeal.Cell.hidden_eq, a0, a1, a2, a3, a4, a5, a6, a7, a8, a9, a10]
  · obtain ⟨a0, a1, a2, a3, a4, a5, a6, a7, a8, a9, a10⟩ := hagree c
    rw [Cert.ReferenceIdeal.Read.val_main_v33_eq, Cert.ReferenceIdeal.Cell.cell_eq, a0, a1, a2, a3, a4, a5, a6, a9, a10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
